-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S395x512 : Shape := ⟨2, ![395, 512]⟩
abbrev S32768 : Shape := ⟨1, ![32768]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S395x512 : S_.BroadcastsInDim S395x512 (![] : Fin 0 → Fin S395x512.rank)
  reducesTo_S395x512_S_d0_1 : S395x512.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg3 : IVec S32768 32) (main_v13 : IVec S_ 1) (main_v15 : IVec S32768 1) (main_c_5 : IVec S_ 1) : IVec S_ 1 :=
  let main_v16 : IVec S_ 1 := (fun x v => Host.reduce IntOp.andi x v reducesTo_S32768_S_d0 h_S_) main_v15 main_c_5
  let main_v17 : IVec S_ 1 := andi main_v13 main_v16
  let main_c_6 : IVec S_ 32 := constantI S_ 32 395#32
  let main_v18 : IVec S32768 32 := broadcastInDim S32768 ![] bcast_S_S32768 main_c_6
  let main_v19 : IVec S32768 1 := cmpi .slt main_arg3 main_v18
  let main_c_7 : IVec S_ 1 := constantI S_ 1 1#1
  let main_v20 : IVec S_ 1 := (fun x v => Host.reduce IntOp.andi x v reducesTo_S32768_S_d0 h_S_) main_v19 main_c_7
  let main_v21 : IVec S_ 1 := andi main_v17 main_v20
  main_v21

def fn {F : FTy → Type} [FloatOps F] (main_arg0 : FVec F S32768x512 .f32) (main_arg1 : FVec F S32768x512 .f32) (main_arg2 : FVec F S395x512 .f32) (main_arg3 : IVec S32768 32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S395x512 .f32 := Host.absf main_arg2
  let main_cst_2 : FVec F S_ .f32 := constant S_ .f32 0x7F800000#32
  let main_v10 : FVec F S395x512 .f32 := broadcastInDim S395x512 ![] bcast_S_S395x512 main_cst_2
  let main_v11 : IVec S395x512 1 := cmpf .olt main_v9 main_v10
  let main_c_3 : IVec S_ 1 := constantI S_ 1 1#1
  let main_v12 : IVec S_ 1 := (fun x v => Host.reduce IntOp.andi x v reducesTo_S395x512_S_d0_1 h_S_) main_v11 main_c_3
  let main_v13 : IVec S_ 1 := andi main_v8 main_v12
  let main_c_4 : IVec S_ 32 := constantI S_ 32 0#32
  let main_v14 : IVec S32768 32 := broadcastInDim S32768 ![] bcast_S_S32768 main_c_4
  let main_v15 : IVec S32768 1 := cmpi .sge main_arg3 main_v14
  let main_c_5 : IVec S_ 1 := constantI S_ 1 1#1
  fn_part1 (F := F) main_arg3 main_v13 main_v15 main_c_5
-- ==== Kernel.lean ====
abbrev S32768x512 : Shape := ⟨2, ![32768, 512]⟩
abbrev S395x512 : Shape := ⟨2, ![395, 512]⟩
abbrev S32768 : Shape := ⟨1, ![32768]⟩
abbrev S1x32768 : Shape := ⟨2, ![1, 32768]⟩
abbrev S2x512x512 : Shape := ⟨3, ![2, 512, 512]⟩
abbrev S1x2048 : Shape := ⟨2, ![1, 2048]⟩
abbrev S2048x512 : Shape := ⟨2, ![2048, 512]⟩
abbrev S1x512x512 : Shape := ⟨3, ![1, 512, 512]⟩
abbrev S512x512 : Shape := ⟨2, ![512, 512]⟩
abbrev S512x2048 : Shape := ⟨2, ![512, 2048]⟩
abbrev S_ : Shape := ⟨0, ![]⟩
abbrev S512 : Shape := ⟨1, ![512]⟩
abbrev S32768x1 : Shape := ⟨2, ![32768, 1]⟩
abbrev S395 : Shape := ⟨1, ![395]⟩
abbrev S395x1 : Shape := ⟨2, ![395, 1]⟩

abbrev nBuf : Space → Nat
  | .hbm => 69
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S395x512, .f32⟩
  | .hbm, ⟨3, _⟩ => ⟨S32768, .i32⟩
  | .hbm, ⟨4, _⟩ => ⟨S1x32768, .i32⟩
  | .hbm, ⟨5, _⟩ => ⟨S2x512x512, .f32⟩
  | .hbm, ⟨6, _⟩ => ⟨S2x512x512, .f32⟩
  | .hbm, ⟨7, _⟩ => ⟨S1x512x512, .f32⟩
  | .hbm, ⟨8, _⟩ => ⟨S512x512, .f32⟩
  | .hbm, ⟨9, _⟩ => ⟨S1x512x512, .f32⟩
  | .hbm, ⟨10, _⟩ => ⟨S512x512, .f32⟩
  | .hbm, ⟨11, _⟩ => ⟨S512x512, .f32⟩
  | .hbm, ⟨12, _⟩ => ⟨S1x512x512, .f32⟩
  | .hbm, ⟨13, _⟩ => ⟨S512x512, .f32⟩
  | .hbm, ⟨14, _⟩ => ⟨S1x512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S512, .f32⟩
  | .hbm, ⟨21, _⟩ => ⟨S32768x1, .i32⟩
  | .hbm, ⟨22, _⟩ => ⟨S512, .f32⟩
  | .hbm, ⟨23, _⟩ => ⟨S395x512, .f32⟩
  | .hbm, ⟨24, _⟩ => ⟨S395x512, .f32⟩
  | .hbm, ⟨25, _⟩ => ⟨S395, .f32⟩
  | .hbm, ⟨26, _⟩ => ⟨S_, .f32⟩
  | .hbm, ⟨27, _⟩ => ⟨S395, .f32⟩
  | .hbm, ⟨28, _⟩ => ⟨S395, .f32⟩
  | .hbm, ⟨29, _⟩ => ⟨S395x1, .f32⟩
  | .hbm, ⟨30, _⟩ => ⟨S395x512, .f32⟩
  | .hbm, ⟨31, _⟩ => ⟨S395x512, .f32⟩
  | .hbm, ⟨32, _⟩ => ⟨S395x1, .f32⟩
  | .hbm, ⟨33, _⟩ => ⟨S395x512, .f32⟩
  | .hbm, ⟨34, _⟩ => ⟨S395x512, .f32⟩
  | .hbm, ⟨35, _⟩ => ⟨S395x512, .f32⟩
  | .hbm, ⟨36, _⟩ => ⟨S395x512, .f32⟩
  | .hbm, ⟨37, _⟩ => ⟨S395x512, .f32⟩
  | .hbm, ⟨38, _⟩ => ⟨S395x512, .f32⟩
  | .hbm, ⟨39, _⟩ => ⟨S_, .f32⟩
  | .hbm, ⟨40, _⟩ => ⟨S395x512, .f32⟩
  | .hbm, ⟨41, _⟩ => ⟨S395x512, .i1⟩
  | .hbm, ⟨42, _⟩ => ⟨S_, .f32⟩
  | .hbm, ⟨43, _⟩ => ⟨S395x512, .f32⟩
  | .hbm, ⟨44, _⟩ => ⟨S395x512, .f32⟩
  | .hbm, ⟨45, _⟩ => ⟨S395x512, .f32⟩
  | .hbm, ⟨46, _⟩ => ⟨S_, .f32⟩
  | .hbm, ⟨47, _⟩ => ⟨S395x512, .f32⟩
  | .hbm, ⟨48, _⟩ => ⟨S395x512, .f32⟩
  | .hbm, ⟨49, _⟩ => ⟨S395x512, .f32⟩
  | .hbm, ⟨50, _⟩ => ⟨S_, .f32⟩
  | .hbm, ⟨51, _⟩ => ⟨S395x512, .f32⟩
  | .hbm, ⟨52, _⟩ => ⟨S395x512, .i1⟩
  | .hbm, ⟨53, _⟩ => ⟨S_, .f32⟩
  | .hbm, ⟨54, _⟩ => ⟨S395x512, .f32⟩
  | .hbm, ⟨55, _⟩ => ⟨S395x512, .f32⟩
  | .hbm, ⟨56, _⟩ => ⟨S395x512, .f32⟩
  | .hbm, ⟨57, _⟩ => ⟨S_, .f32⟩
  | .hbm, ⟨58, _⟩ => ⟨S395x512, .f32⟩
  | .hbm, ⟨59, _⟩ => ⟨S395x512, .f32⟩
  | .hbm, ⟨60, _⟩ => ⟨S395x512, .f32⟩
  | .hbm, ⟨61, _⟩ => ⟨S395x512, .f32⟩
  | .hbm, ⟨62, _⟩ => ⟨S395x1, .f32⟩
  | .hbm, ⟨63, _⟩ => ⟨S395x512, .f32⟩
  | .hbm, ⟨64, _⟩ => ⟨S395x512, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1x2048, .i32⟩
  | .local _ .vmem, ⟨1, _⟩ => ⟨S1x2048, .i32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S512x512, .f32⟩
  | .local _ .vmem, ⟨11, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32768_S1x32768 : S32768.ShapeCasts S1x32768
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S512x2048_d0_w32 : S512x2048.Iotas .tc 32 [0]
  broadcasts_S1x2048_S512x2048 : S1x2048.Broadcasts S512x2048
  natLt_1_32 : 1 < 32
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  slices_S2x512x512_S1x512x512_0_0_0 : S2x512x512.Slices ![0, 0, 0] S1x512x512
  slices_S2x512x512_S1x512x512_1_0_0 : S2x512x512.Slices ![1, 0, 0] S1x512x512
  bcast_S_S32768 : S_.BroadcastsInDim S32768 (![] : Fin 0 → Fin S32768.rank)
  bcast_S_S512 : S_.BroadcastsInDim S512 (![] : Fin 0 → Fin S512.rank)
  bcast_S32768_S32768x1_0 : S32768.BroadcastsInDim S32768x1 (![0] : Fin 1 → Fin S32768x1.rank)
  slices_S512x512_S395x512_0_0 : S512x512.Slices ![0, 0] S395x512
  slices_S512_S395_0 : S512.Slices ![0] S395
  bcast_S_S395 : S_.BroadcastsInDim S395 (![] : Fin 0 → Fin S395.rank)
  bcast_S395_S395x1_0 : S395.BroadcastsInDim S395x1 (![0] : Fin 1 → Fin S395x1.rank)
  bcast_S395x1_S395x512_0_1 : S395x1.BroadcastsInDim S395x512 (![0, 1] : Fin 2 → Fin S395x512.rank)
  bcast_S_S395x512 : S_.BroadcastsInDim S395x512 (![] : Fin 0 → Fin S395x512.rank)
  reducesTo_S395x512_S_d0_1 : S395x512.ReducesTo [0, 1] S_
  h_S_ : 0 < S_.numel
  dot_S512x2048_S2048x512_S512x512_1_0_0_1_n_n_wf : DotDims.WF S512x2048 S2048x512 S512x512 [1] [0] [0] [1] [] []
  scatter_S512_S32768x1_S32768_n_0_0_1_wf : ScatterDims.WF S512 S32768x1 S32768 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x32768.size a
  hwx0_0 : ∀ i : grid0.Coords, EltTy.bits .i32 = 32 ∨ (Rect.block (s := S1x32768) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S32768x512.size a
  hwx0_2 : ∀ i : grid0.Coords, EltTy.bits .f32 = 32 ∨ (Rect.block (s := S32768x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S2x512x512.size a
  hwx0_3 : ∀ i : grid0.Coords, EltTy.bits .f32 = 32 ∨ (Rect.block (s := S2x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S2x512x512.size a
  hwx0_4 : ∀ i : grid0.Coords, EltTy.bits .f32 = 32 ∨ (Rect.block (s := S2x512x512) S1x512x512.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def scatter_S512_S32768x1_S32768_n_0_0_1 : ScatterDims S512 S32768x1 S32768 where
  updateWindowDims := []
  insertedWindowDims := [0]
  scatterDimsToOperandDims := [0]
  indexVectorDim := 1
  wf := scatter_S512_S32768x1_S32768_n_0_0_1_wf

abbrev win0_0 : Pipeline.Window sig grid0 :=
  Pipeline.Window.ofSpec (Memref.whole main_v0) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x512 : Shape := ⟨2, ![32768, 512]⟩
abbrev S395x512 : Shape := ⟨2, ![395, 512]⟩
abbrev S32768 : Shape := ⟨1, ![32768]⟩
abbrev S_ : Shape := ⟨0, ![]⟩
abbrev S395 : Shape := ⟨1, ![395]⟩
abbrev S32768x1 : Shape := ⟨2, ![32768, 1]⟩
abbrev S395x1 : Shape := ⟨2, ![395, 1]⟩

abbrev nBuf : Space → Nat
  | .hbm => 89
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S395x512, .f32⟩
  | .hbm, ⟨3, _⟩ => ⟨S32768, .i32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S395, .f32⟩
  | .hbm, ⟨8, _⟩ => ⟨S32768x1, .i32⟩
  | .hbm, ⟨9, _⟩ => ⟨S395, .f32⟩
  | .hbm, ⟨10, _⟩ => ⟨S_, .f32⟩
  | .hbm, ⟨11, _⟩ => ⟨S395, .f32⟩
  | .hbm, ⟨12, _⟩ => ⟨S395, .f32⟩
  | .hbm, ⟨13, _⟩ => ⟨S_, .f32⟩
  | .hbm, ⟨14, _⟩ => ⟨S395x512, .f32⟩
  | .hbm, ⟨15, _⟩ => ⟨S32768x1, .i32⟩
  | .hbm, ⟨16, _⟩ => ⟨S395x512, .f32⟩
  | .hbm, ⟨17, _⟩ => ⟨S_, .f32⟩
  | .hbm, ⟨18, _⟩ => ⟨S395x512, .f32⟩
  | .hbm, ⟨19, _⟩ => ⟨S32768x1, .i32⟩
  | .hbm, ⟨20, _⟩ => ⟨S395x512, .f32⟩
  | .hbm, ⟨21, _⟩ => ⟨S395x1, .f32⟩
  | .hbm, ⟨22, _⟩ => ⟨S395x512, .f32⟩
  | .hbm, ⟨23, _⟩ => ⟨S395x512, .f32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S32768x512, .f32⟩
  | .hbm, ⟨33, _⟩ => ⟨S395x1, .f32⟩
  | .hbm, ⟨34, _⟩ => ⟨S395x512, .f32⟩
  | .hbm, ⟨35, _⟩ => ⟨S395x512, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S32768x512, .f32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S32768x1, .i32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S_, .f32⟩
  | .hbm, ⟨57, _⟩ => ⟨S32768x512, .f32⟩
  | .hbm, ⟨58, _⟩ => ⟨S32768x512, .i1⟩
  | .hbm, ⟨59, _⟩ => ⟨S_, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S_, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S32768x512, .f32⟩
  | .hbm, ⟨72, _⟩ => ⟨S32768x512, .f32⟩
  | .hbm, ⟨73, _⟩ => ⟨S_, .f32⟩
  | .hbm, ⟨74, _⟩ => ⟨S32768x512, .f32⟩
  | .hbm, ⟨75, _⟩ => ⟨S32768x512, .i1⟩
  | .hbm, ⟨76, _⟩ => ⟨S_, .f32⟩
  | .hbm, ⟨77, _⟩ => ⟨S32768x512, .f32⟩
  | .hbm, ⟨78, _⟩ => ⟨S32768x512, .f32⟩
  | .hbm, ⟨79, _⟩ => ⟨S32768x512, .f32⟩
  | .hbm, ⟨80, _⟩ => ⟨S_, .f32⟩
  | .hbm, ⟨81, _⟩ => ⟨S32768x512, .f32⟩
  | .hbm, ⟨82, _⟩ => ⟨S32768x512, .f32⟩
  | .hbm, ⟨83, _⟩ => ⟨S32768x512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_7 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S_S395 : S_.BroadcastsInDim S395 (![] : Fin 0 → Fin S395.rank)
  bcast_S32768_S32768x1_0 : S32768.BroadcastsInDim S32768x1 (![0] : Fin 1 → Fin S32768x1.rank)
  bcast_S_S395x512 : S_.BroadcastsInDim S395x512 (![] : Fin 0 → Fin S395x512.rank)
  bcast_S395_S395x1_0 : S395.BroadcastsInDim S395x1 (![0] : Fin 1 → Fin S395x1.rank)
  bcast_S395x1_S395x512_0_1 : S395x1.BroadcastsInDim S395x512 (![0, 1] : Fin 2 → Fin S395x512.rank)
  bcast_S_S32768x512 : S_.BroadcastsInDim S32768x512 (![] : Fin 0 → Fin S32768x512.rank)
  reducesTo_S32768x512_S_d0_1 : S32768x512.ReducesTo [0, 1] S_
  h_S_ : 0 < S_.numel
  scatter_S395_S32768x1_S32768_n_0_0_1_wf : ScatterDims.WF S395 S32768x1 S32768 [] [0] [0] 1
  scatter_S395x512_S32768x1_S32768x512_1_0_0_1_wf : ScatterDims.WF S395x512 S32768x1 S32768x512 [1] [0] [0] 1
  gather_S395x512_S32768x1_S32768x512_1_0_n_n_0_1_1512_wf : GatherDims.WF S395x512 S32768x1 S32768x512 [1] [0] [] [0] [] 1 ![1, 512]

variable [Facts₀]

def scatter_S395_S32768x1_S32768_n_0_0_1 : ScatterDims S395 S32768x1 S32768 where
  updateWindowDims := []
  insertedWindowDims := [0]
  scatterDimsToOperandDims := [0]
  indexVectorDim := 1
  wf := scatter_S395_S32768x1_S32768_n_0_0_1_wf
def scatter_S395x512_S32768x1_S32768x512_1_0_0_1 : ScatterDims S395x512 S32768x1 S32768x512 where
  updateWindowDims := [1]
  insertedWindowDims := [0]
  scatterDimsToOperandDims := [0]
  indexVectorDim := 1
  wf := scatter_S395x512_S32768x1_S32768x512_1_0_0_1_wf
def gather_S395x512_S32768x1_S32768x512_1_0_n_n_0_1_1512 : GatherDims S395x512 S32768x1 S32768x512 where
  offsetDims := [1]
  collapsedSliceDims := [0]
  operandBatchingDims := []
  startIndicesBatchingDims := []
  startIndexMap := [0]
  indexVectorDim := 1
  sliceSizes := ![1, 512]
  wf := gather_S395x512_S32768x1_S32768x512_1_0_n_n_0_1_1512_wf

class Facts : Prop extends Facts₀ where

variable [Facts]
-- ==== Proof.LibRowScatter.lean ====
/-
  General lemmas: a host scatter-add of rows, and a host gather of rows, read at an index at the extended reals.

  `x.at[idx].add(upd)` along axis 0 (jax's segment_sum): operand `[N]` or `[N, D]`, scatter indices `[M, 1]`
  (one start index per update row), updates `[M]` or `[M, D]`.  The result at class p (and column q) is the
  operand there plus the sum of the update rows whose start index, read signed, is p; a start index outside
  `[0, N)` contributes nothing.

  `x[idx]` along axis 0 of a table `[N, D]` at start indices `[M, 1]`: row i of the result is the table's row
  at the start index, read signed and clamped into `[0, N - 1]`.
-/
import Idealize.ShloMosaic.PureOps.Ideal
import Idealize.ShloMosaic.PureOps.Ideal.Laws
import Idealize.ShloMosaic.Lib.ValueIdx

noncomputable section

open scoped BigOperators

namespace Idealize.ShloMosaic.RowScatter

open Idealize.ShloMosaic Idealize.ShloMosaic.ValueIdx

/-- The dimension numbers of a scatter of scalars into `[N]` at start indices `[M, 1]`. -/
abbrev scatDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a scatter of rows into `[N, D]` at start indices `[M, 1]`. -/
abbrev scatDims2 (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- The dimension numbers of a gather of rows of `[N, D]` at start indices `[M, 1]`. -/
abbrev gathDims2 (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The start index of update row i. -/
abbrev sidx {M : Nat} (i : Fin M) : (⟨2, ![M, 1]⟩ : Shape).Idx := ix2 i (⟨0, Nat.one_pos⟩ : Fin 1)

/-- An update lands at operand index i exactly when, on every axis, its signed start plus its window coordinate is
    i's coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro hf a
      have hfa := congrFun (Option.some.inj hf) a
      rw [← hfa]
      exact (Int.toNat_of_nonneg (h a).1).symm
    · intro hall
      congr 1
      funext a
      refine Fin.ext ?_
      show (d.start j idx a + (d.window j a : ℤ)).toNat = (i a).val
      rw [hall a]
      exact Int.toNat_natCast _
  · rw [dif_neg h]
    constructor
    · intro hf
      exact absurd hf (by simp)
    · intro hall
      refine absurd (fun a => ?_) h
      rw [hall a]
      exact ⟨Int.natCast_nonneg _, by exact_mod_cast (i a).isLt⟩

/-- A rank-1 index set is its coordinate's range. -/
private def idxEquiv1 {n : Nat} : (⟨1, ![n]⟩ : Shape).Idx ≃ Fin n where
  toFun j := j 0
  invFun a := ix1 a
  left_inv j := (eq_ix1 j).symm
  right_inv _ := rfl

/-! ## Scalars: operand `[N]`, start indices `[M, 1]`, updates `[M]` -/

section Scalars
variable {N M w : Nat} (wf : ScatterDims.WF ⟨1, ![N]⟩ ⟨2, ![M, 1]⟩ ⟨1, ![M]⟩ [] [0] [0] 1)

/-- The signed start of update i on axis 0 is its start index. -/
private theorem start1 (idx : IVec ⟨2, ![M, 1]⟩ w) (a : Fin M) :
    (scatDims1 N M wf).start (ix1 a) idx (0 : Fin 1) = (idx (sidx a)).toInt := by
  unfold ScatterDims.start
  rw [dif_pos (show (0 : Fin 1) ∈ (scatDims1 N M wf).scatterDimsToOperandDims from List.mem_singleton.mpr rfl)]
  have hsi : (scatDims1 N M wf).siIdx (ix1 a) ⟨List.idxOf (0 : Fin 1) (scatDims1 N M wf).scatterDimsToOperandDims,
      List.idxOf_lt_length_iff.2 (List.mem_singleton.mpr rfl)⟩ = sidx a := by
    funext b; refine Fin.ext ?_
    match b with
    | ⟨0, _⟩ => rfl
    | ⟨1, _⟩ => rfl
  rw [hsi]

/-- Axis 0 is an inserted axis: no window coordinate there. -/
private theorem window1 (a : Fin M) : (scatDims1 N M wf).window (ix1 a) (0 : Fin 1) = 0 := by
  unfold ScatterDims.window
  rw [dif_neg (show ¬ (0 : Fin 1) ∈ (scatDims1 N M wf).sKept from
    fun h => of_decide_eq_true (List.mem_filter.mp h).2 (List.mem_singleton.mpr rfl))]

/-- Update i lands at p exactly when its start index, read signed, is p. -/
private theorem resultIdx1 (idx : IVec ⟨2, ![M, 1]⟩ w) (a : Fin M) (p : Fin N) :
    (scatDims1 N M wf).resultIdx? (ix1 a) idx = some (ix1 p) ↔ (idx (sidx a)).toInt = (p.val : ℤ) := by
  rw [resultIdx?_eq_some_iff]
  constructor
  · intro h
    have h0 := h (0 : Fin 1)
    rw [start1, window1] at h0
    simpa using h0
  · intro h b
    match b with
    | ⟨0, _⟩ =>
      show (scatDims1 N M wf).start (ix1 a) idx (0 : Fin 1) + (((scatDims1 N M wf).window (ix1 a) (0 : Fin 1) : ℕ) : ℤ) = _
      rw [start1, window1, h]
      simp

end Scalars

/-- THE SCALAR SCATTER-ADD READ AT p. -/
theorem scatterAdd1_apply {N M w : Nat} (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (p : Fin N) :
    Host.scatterAdd (scatDims1 N M wf) x idx upd (ix1 p)
      = x (ix1 p) + ∑ i : Fin M, (if (idx (sidx i)).toInt = (p.val : ℤ) then upd (ix1 i) else 0) := by
  show Ideal.hostScatterAdd (scatDims1 N M wf) x idx upd (ix1 p) = _
  unfold Ideal.hostScatterAdd
  congr 1
  rw [Finset.sum_filter]
  refine Fintype.sum_equiv idxEquiv1 _ _ (fun j => ?_)
  obtain ⟨a, rfl⟩ : ∃ a, j = ix1 a := ⟨j 0, eq_ix1 j⟩
  exact if_congr (resultIdx1 wf idx a p) rfl rfl

/-! ## Rows: operand `[N, D]`, start indices `[M, 1]`, updates `[M, D]` -/

section Rows
variable {N D M w : Nat} (wf : ScatterDims.WF ⟨2, ![N, D]⟩ ⟨2, ![M, 1]⟩ ⟨2, ![M, D]⟩ [1] [0] [0] 1)

/-- The signed start of update (i, b) on axis 0 is row i's start index. -/
private theorem start2_0 (idx : IVec ⟨2, ![M, 1]⟩ w) (a : Fin M) (b : Fin D) :
    (scatDims2 N D M wf).start (ix2 a b) idx (0 : Fin 2) = (idx (sidx a)).toInt := by
  unfold ScatterDims.start
  rw [dif_pos (show (0 : Fin 2) ∈ (scatDims2 N D M wf).scatterDimsToOperandDims from List.mem_singleton.mpr rfl)]
  have hsi : (scatDims2 N D M wf).siIdx (ix2 a b) ⟨List.idxOf (0 : Fin 2) (scatDims2 N D M wf).scatterDimsToOperandDims,
      List.idxOf_lt_length_iff.2 (List.mem_singleton.mpr rfl)⟩ = sidx a := by
    funext c; refine Fin.ext ?_
    match c with
    | ⟨0, _⟩ => rfl
    | ⟨1, _⟩ => rfl
  rw [hsi]

/-- Axis 1 is not named by the start index map: the start there is 0. -/
private theorem start2_1 (idx : IVec ⟨2, ![M, 1]⟩ w) (a : Fin M) (b : Fin D) :
    (scatDims2 N D M wf).start (ix2 a b) idx (1 : Fin 2) = 0 := by
  unfold ScatterDims.start
  rw [dif_neg (show ¬ (1 : Fin 2) ∈ (scatDims2 N D M wf).scatterDimsToOperandDims from
    fun h => Nat.one_ne_zero (congrArg Fin.val (List.mem_singleton.mp h)))]

/-- Axis 0 is an inserted axis: no window coordinate there. -/
private theorem window2_0 (a : Fin M) (b : Fin D) : (scatDims2 N D M wf).window (ix2 a b) (0 : Fin 2) = 0 := by
  unfold ScatterDims.window
  rw [dif_neg (show ¬ (0 : Fin 2) ∈ (scatDims2 N D M wf).sKept from
    fun h => of_decide_eq_true (List.mem_filter.mp h).2 (List.mem_singleton.mpr rfl))]

/-- Axis 1 is the one window axis: the window coordinate there is the update's column. -/
private theorem window2_1 (a : Fin M) (b : Fin D) : (scatDims2 N D M wf).window (ix2 a b) (1 : Fin 2) = b.val := by
  unfold ScatterDims.window
  rw [dif_pos (show (1 : Fin 2) ∈ (scatDims2 N D M wf).sKept from
    List.mem_filter.mpr ⟨List.mem_finRange _, decide_eq_true
      (fun h => Nat.one_ne_zero (congrArg Fin.val (List.mem_singleton.mp h)))⟩)]
  rfl

/-- Update (i, b) lands at (p, q) exactly when row i's start index, read signed, is p and b is q. -/
private theorem resultIdx2 (idx : IVec ⟨2, ![M, 1]⟩ w) (a : Fin M) (b : Fin D) (p : Fin N) (q : Fin D) :
    (scatDims2 N D M wf).resultIdx? (ix2 a b) idx = some (ix2 p q)
      ↔ (idx (sidx a)).toInt = (p.val : ℤ) ∧ b = q := by
  rw [resultIdx?_eq_some_iff]
  constructor
  · intro h
    have h0 := h (0 : Fin 2)
    have h1 := h (1 : Fin 2)
    rw [start2_0, window2_0] at h0
    rw [start2_1, window2_1] at h1
    refine ⟨by simpa using h0, Fin.ext ?_⟩
    have h1' : ((b.val : ℕ) : ℤ) = (q.val : ℤ) := by simpa using h1
    exact_mod_cast h1'
  · rintro ⟨h, rfl⟩ c
    match c with
    | ⟨0, _⟩ =>
      show (scatDims2 N D M wf).start (ix2 a b) idx (0 : Fin 2)
        + (((scatDims2 N D M wf).window (ix2 a b) (0 : Fin 2) : ℕ) : ℤ) = _
      rw [start2_0, window2_0, h]
      simp
    | ⟨1, _⟩ =>
      show (scatDims2 N D M wf).start (ix2 a b) idx (1 : Fin 2)
        + (((scatDims2 N D M wf).window (ix2 a b) (1 : Fin 2) : ℕ) : ℤ) = _
      rw [start2_1, window2_1]
      simp

end Rows

/-- THE ROW SCATTER-ADD READ AT (p, q). -/
theorem scatterAdd2_apply {N D M w : Nat} (wf : ScatterDims.WF ⟨2, ![N, D]⟩ ⟨2, ![M, 1]⟩ ⟨2, ![M, D]⟩ [1] [0] [0] 1)
    (x : FVec Ideal ⟨2, ![N, D]⟩ .f32) (idx : IVec ⟨2, ![M, 1]⟩ w) (upd : FVec Ideal ⟨2, ![M, D]⟩ .f32)
    (p : Fin N) (q : Fin D) :
    Host.scatterAdd (scatDims2 N D M wf) x idx upd (ix2 p q)
      = x (ix2 p q) + ∑ i : Fin M, (if (idx (sidx i)).toInt = (p.val : ℤ) then upd (ix2 i q) else 0) := by
  show Ideal.hostScatterAdd (scatDims2 N D M wf) x idx upd (ix2 p q) = _
  unfold Ideal.hostScatterAdd
  congr 1
  rw [Finset.sum_filter, sum_idx2]
  refine Finset.sum_congr rfl (fun a _ => ?_)
  by_cases hp : (idx (sidx a)).toInt = (p.val : ℤ)
  · rw [if_pos hp]
    have hb : ∀ b : Fin D, (if (scatDims2 N D M wf).resultIdx? (ix2 a b) idx = some (ix2 p q) then upd (ix2 a b) else 0)
        = if b = q then upd (ix2 a b) else 0 :=
      fun b => if_congr ((resultIdx2 wf idx a b p q).trans ⟨fun h => h.2, fun h => ⟨hp, h⟩⟩) rfl rfl
    rw [Finset.sum_congr rfl (fun b _ => hb b), Finset.sum_ite_eq' Finset.univ q, if_pos (Finset.mem_univ q)]
  · rw [if_neg hp]
    exact Finset.sum_eq_zero (fun b _ => if_neg (fun h => hp ((resultIdx2 wf idx a b p q).mp h).1))

/-- THE ROW GATHER READ AT (i, q): the table's row at the start index, read signed and clamped into `[0, N - 1]`. -/
theorem gather2_apply {α : Type} {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (q : Fin D) :
    Host.gather (gathDims2 N D M wf) x idx (ix2 i q)
      = x (ix2 (⟨min (idx (sidx i)).toInt.toNat (N - 1), by omega⟩ : Fin N) q) := by
  unfold Host.gather
  congr 1
  funext a
  refine Fin.ext ?_
  match a with
  | ⟨0, _⟩ =>
    show (gathDims2 N D M wf).start (ix2 i q) idx (0 : Fin 2) + (gathDims2 N D M wf).batchCoord (ix2 i q) (0 : Fin 2)
      + (gathDims2 N D M wf).offCoord (ix2 i q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathDims2 N D M wf).startIndexMap from List.mem_singleton.mpr rfl)]
    have hsi : (gathDims2 N D M wf).siIdx (ix2 i q) ⟨List.idxOf (0 : Fin 2) (gathDims2 N D M wf).startIndexMap,
        List.idxOf_lt_length_iff.2 (List.mem_singleton.mpr rfl)⟩ = sidx i := by
      funext b; refine Fin.ext ?_
      match b with
      | ⟨0, _⟩ => rfl
      | ⟨1, _⟩ => rfl
    rw [hsi]
    rfl
  | ⟨1, _⟩ =>
    show (gathDims2 N D M wf).start (ix2 i q) idx (1 : Fin 2) + (gathDims2 N D M wf).batchCoord (ix2 i q) (1 : Fin 2)
      + (gathDims2 N D M wf).offCoord (ix2 i q) (1 : Fin 2) = _
    rw [GatherDims.batchCoord_eq_zero _ _ _ List.not_mem_nil]
    unfold GatherDims.start
    rw [dif_neg (show ¬ (1 : Fin 2) ∈ (gathDims2 N D M wf).startIndexMap from
      fun h => Nat.one_ne_zero (congrArg Fin.val (List.mem_singleton.mp h)))]
    simp only [Nat.zero_add, Nat.add_zero]
    rfl

end Idealize.ShloMosaic.RowScatter

end
-- ==== Proof.Spec.lean ====
/-
  The mathematics both programs compute, over plain coordinates and the extended reals.

  Rows i < 32768 carry a label word t i and two feature rows x1 i, x2 i of 512 entries; cen is a table of 395
  center rows.  For a class p the SEGMENT SUM of x is the sum of the rows labelled p, and the COUNT is the sum of
  ones over the same rows.  The loss term of a class entry is the smooth-L1 of |s / max(n, 1) - ce|.

  The kernel side: the region leaves, per core g, the one-hot partial sums `part x t g` (eight row blocks of 2048
  rows each); the host adds the two cores' partials, divides by the clamped count, takes the loss term of each of
  the 395 x 512 class entries, weights it by the count, sums, and multiplies by 2^-24 (`kval`).

  The reference side: segment sums and counts by scatter-add, the class means gathered back per sample (row
  `grow (t i)`), the loss term of each of the 32768 x 512 sample entries summed and divided by 2^24, once for each
  modality (`rval`).
-/
import Idealize.ShloMosaic.PureOps.Ideal
import Idealize.ShloMosaic.Lib.ValueIdx

noncomputable section

open scoped BigOperators

namespace Cert.SegLoss

open Idealize.ShloMosaic

/-- The extended reals, as the value type of an f32 at the ideal instance. -/
abbrev E : Type := Ideal .f32

/-- The literals the two programs share, kept as their words. -/
def one : E := Ideal.ofBits .f32 0x3F800000#32
def half : E := Ideal.ofBits .f32 0x3F000000#32
def zero : E := Ideal.ofBits .f32 0x00000000#32
/-- The kernel's final factor (the word of 2^-24) and the reference's final divisor (the word of 2^24). -/
def wK : E := Ideal.ofBits .f32 0x33800000#32
def wR : E := Ideal.ofBits .f32 0x4B800000#32

/-- The loss term of one class entry: smooth-L1 (threshold 1) of the distance between the class mean
    `s / max n 1` and the center entry `ce`, spelt with the scalar operations both programs print. -/
def term (s n ce : E) : E :=
  Scalar.select
    (FloatOps.cmpf .olt (FloatOps.hostAbsf (FloatOps.subf (FloatOps.hostDivf s (FloatOps.maximumf n one)) ce)) one)
    (FloatOps.mulf (FloatOps.mulf half (FloatOps.hostAbsf (FloatOps.subf (FloatOps.hostDivf s (FloatOps.maximumf n one)) ce)))
      (FloatOps.hostAbsf (FloatOps.subf (FloatOps.hostDivf s (FloatOps.maximumf n one)) ce)))
    (FloatOps.subf (FloatOps.hostAbsf (FloatOps.subf (FloatOps.hostDivf s (FloatOps.maximumf n one)) ce)) half)

/-- Row `(8 g + s) * 2048 + k`: row k of the s-th block of core g. -/
def rowOf (g : Fin 2) (s : Fin 8) (k : Fin 2048) : Fin 32768 :=
  ⟨(g.val * 8 + s.val) * 2048 + k.val, by have := g.isLt; have := s.isLt; have := k.isLt; omega⟩

/-- The one-hot partial sum of core g at class p (padded to 512 classes), feature q: over the core's eight blocks
    of 2048 rows, the rows whose label word reads p. -/
def part (x : Fin 32768 → Fin 512 → E) (t : Fin 32768 → BitVec 32) (g : Fin 2) (p q : Fin 512) : E :=
  ∑ s : Fin 8, ∑ k : Fin 2048, (if (t (rowOf g s k)).toInt = (p.val : ℤ) then x (rowOf g s k) q else 0)

/-- The segment sum of class p, feature q, from the zero word: the rows whose label word reads p. -/
def seg (x : Fin 32768 → Fin 512 → E) (t : Fin 32768 → BitVec 32) (p : ℕ) (q : Fin 512) : E :=
  zero + ∑ i : Fin 32768, (if (t i).toInt = (p : ℤ) then x i q else 0)

/-- The count of class p, from the zero word: a one for each row whose label word reads p. -/
def cnt (t : Fin 32768 → BitVec 32) (p : ℕ) : E :=
  zero + ∑ i : Fin 32768, (if (t i).toInt = (p : ℤ) then one else 0)

/-- The kernel's result from the two cores' partial sums `A1`, `A2`, the padded counts `n` and the centers. -/
def kval (A1 A2 : Fin 2 → Fin 512 → Fin 512 → E) (n : Fin 512 → E) (cen : Fin 395 → Fin 512 → E) : E :=
  FloatOps.mulf
    (zero + ∑ c : Fin 395, ∑ d : Fin 512,
      FloatOps.mulf
        (FloatOps.addf
          (term (FloatOps.addf (A1 0 (Fin.castLE (by decide) c) d) (A1 1 (Fin.castLE (by decide) c) d)) (n (Fin.castLE (by decide) c)) (cen c d))
          (term (FloatOps.addf (A2 0 (Fin.castLE (by decide) c) d) (A2 1 (Fin.castLE (by decide) c) d)) (n (Fin.castLE (by decide) c)) (cen c d)))
        (n (Fin.castLE (by decide) c)))
    wK

/-- The row of a 395-row table a label word selects in the reference: a negative word first wrapped by 395, then
    read signed and clamped into the table. -/
def grow (w : BitVec 32) : Fin 395 :=
  ⟨min (Scalar.select (IntOp.cmpi .slt w 0#32) (w + 395#32) w).toInt.toNat 394, by omega⟩

/-- The reference's result from the segment sums `S1`, `S2`, the counts `n`, the centers and the row each sample
    gathers. -/
def rval (S1 S2 : Fin 395 → Fin 512 → E) (n : Fin 395 → E) (cen : Fin 395 → Fin 512 → E) (g : Fin 32768 → Fin 395) : E :=
  FloatOps.addf
    (FloatOps.hostDivf (zero + ∑ i : Fin 32768, ∑ d : Fin 512, term (S1 (g i) d) (n (g i)) (cen (g i) d)) wR)
    (FloatOps.hostDivf (zero + ∑ i : Fin 32768, ∑ d : Fin 512, term (S2 (g i) d) (n (g i)) (cen (g i) d)) wR)

end Cert.SegLoss

end
-- ==== Proof.KernelTail.lean ====
/-
  The host operations after the region, read at the result: the two cores' partial sums added, the first 395
  classes kept, divided by the clamped count, the smooth-L1 term of every class entry weighted by the count,
  summed and multiplied by the word of 2^-24.
-/
import proofs.«402360_j36618891166025_3_alg».proof.Proof.Gen.KernelIdeal.Frame
import proofs.«402360_j36618891166025_3_alg».proof.Proof.LibRowScatter
import proofs.«402360_j36618891166025_3_alg».proof.Proof.Spec
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.ValueIdx Cert.SegLoss

variable (m : (ℓ : Loc nD τ sig) → Buf (Elt Ideal) ℓ)

/-! ## The tail over variables -/

/-- The two partial sums added: entries 0 and 1 of the leading axis, the unit axis dropped. -/
def sumP (A : FVec Ideal S2x512x512 .f32) : FVec Ideal S512x512 .f32 :=
  addf
    (fun i => shapeCast S512x512 (extractStridedSlice S1x512x512 ![0, 0, 0] A slices_S2x512x512_S1x512x512_0_0_0) shapeCasts_S1x512x512_S512x512 i)
    (fun i => shapeCast S512x512 (extractStridedSlice S1x512x512 ![1, 0, 0] A slices_S2x512x512_S1x512x512_1_0_0) shapeCasts_S1x512x512_S512x512 i)

/-- The padded counts: ones scattered into 512 zeros at the labels. -/
def cntV (t : IVec S32768 32) : FVec Ideal S512 .f32 :=
  Host.scatterAdd scatter_S512_S32768x1_S32768_n_0_0_1
    (broadcastInDim S512 ![] bcast_S_S512 (constant S_ .f32 0x00000000#32))
    (broadcastInDim S32768x1 ![0] bcast_S32768_S32768x1_0 t)
    (broadcastInDim S32768 ![] bcast_S_S32768 (constant S_ .f32 0x3F800000#32))

/-- The first 395 counts. -/
def cntS (t : IVec S32768 32) : FVec Ideal S395 .f32 :=
  extractStridedSlice S395 ![0] (cntV t) slices_S512_S395_0

/-- The distance of the class means from the centers. -/
def absV (A : FVec Ideal S2x512x512 .f32) (cen : FVec Ideal S395x512 .f32) (t : IVec S32768 32) : FVec Ideal S395x512 .f32 :=
  Host.absf (subf
    (Host.divf (extractStridedSlice S395x512 ![0, 0] (sumP A) slices_S512x512_S395x512_0_0)
      (broadcastInDim S395x512 ![0, 1] bcast_S395x1_S395x512_0_1
        (broadcastInDim S395x1 ![0] bcast_S395_S395x1_0
          (maximumf (cntS t) (broadcastInDim S395 ![] bcast_S_S395 (constant S_ .f32 0x3F800000#32))))))
    cen)

/-- The smooth-L1 term of every class entry. -/
def lossV (A : FVec Ideal S2x512x512 .f32) (cen : FVec Ideal S395x512 .f32) (t : IVec S32768 32) : FVec Ideal S395x512 .f32 :=
  select
    (cmpf .olt (absV A cen t) (broadcastInDim S395x512 ![] bcast_S_S395x512 (constant S_ .f32 0x3F800000#32)))
    (mulf (mulf (broadcastInDim S395x512 ![] bcast_S_S395x512 (constant S_ .f32 0x3F000000#32)) (absV A cen t)) (absV A cen t))
    (subf (absV A cen t) (broadcastInDim S395x512 ![] bcast_S_S395x512 (constant S_ .f32 0x3F000000#32)))

/-- The weighted terms. -/
def wV (A1 A2 : FVec Ideal S2x512x512 .f32) (cen : FVec Ideal S395x512 .f32) (t : IVec S32768 32) : FVec Ideal S395x512 .f32 :=
  mulf (addf (lossV A1 cen t) (lossV A2 cen t))
    (broadcastInDim S395x512 ![0, 1] bcast_S395x1_S395x512_0_1 (broadcastInDim S395x1 ![0] bcast_S395_S395x1_0 (cntS t)))

/-- The whole tail. -/
def tailV (A1 A2 : FVec Ideal S2x512x512 .f32) (cen : FVec Ideal S395x512 .f32) (t : IVec S32768 32) : FVec Ideal S_ .f32 :=
  mulf (Host.reduceAdd (wV A1 A2 cen t) (constant S_ .f32 0x00000000#32) reducesTo_S395x512_S_d0_1 h_S_)
    (constant S_ .f32 0x33800000#32)

/-! ## The stages read at an index -/

/-- The added partial sums at (p, q): the two leading entries there. -/
theorem sumP_apply (A : FVec Ideal S2x512x512 .f32) (p q : Fin 512) :
    sumP A (ix2 p q) = FloatOps.addf (A (ix3 0 p q)) (A (ix3 1 p q)) := by
  show FloatOps.addf
      (shapeCast S512x512 (extractStridedSlice S1x512x512 ![0, 0, 0] A slices_S2x512x512_S1x512x512_0_0_0) shapeCasts_S1x512x512_S512x512 (ix2 p q))
      (shapeCast S512x512 (extractStridedSlice S1x512x512 ![1, 0, 0] A slices_S2x512x512_S1x512x512_1_0_0) shapeCasts_S1x512x512_S512x512 (ix2 p q)) = _
  rw [shapeCast_1ab_ab_apply, shapeCast_1ab_ab_apply,
    extractStridedSlice_apply ![0, 0, 0] A slices_S2x512x512_S1x512x512_0_0_0 (ix3 (0 : Fin 1) p q) (ix3 (0 : Fin 2) p q)
      (fun a => match a with | ⟨0, _⟩ => rfl | ⟨1, _⟩ => (Nat.zero_add _).symm | ⟨2, _⟩ => (Nat.zero_add _).symm),
    extractStridedSlice_apply ![1, 0, 0] A slices_S2x512x512_S1x512x512_1_0_0 (ix3 (0 : Fin 1) p q) (ix3 (1 : Fin 2) p q)
      (fun a => match a with | ⟨0, _⟩ => rfl | ⟨1, _⟩ => (Nat.zero_add _).symm | ⟨2, _⟩ => (Nat.zero_add _).symm)]

/-- The padded count at p: the zero word plus a one for each row whose label reads p. -/
theorem cntV_apply (t : IVec S32768 32) (p : Fin 512) :
    cntV t (ix1 p) = cnt (fun i => t (ix1 i)) p.val := by
  show Host.scatterAdd (RowScatter.scatDims1 512 32768 Facts₀.scatter_S512_S32768x1_S32768_n_0_0_1_wf)
      (broadcastInDim S512 ![] bcast_S_S512 (constant (F := Ideal) S_ .f32 0x00000000#32))
      (broadcastInDim S32768x1 ![0] bcast_S32768_S32768x1_0 t)
      (broadcastInDim S32768 ![] bcast_S_S32768 (constant (F := Ideal) S_ .f32 0x3F800000#32)) (ix1 p) = _
  rw [RowScatter.scatterAdd1_apply]
  unfold cnt
  refine congrArg₂ (· + ·) rfl (Finset.sum_congr rfl fun i _ => ?_)
  rw [broadcastInDim_apply ![0] bcast_S32768_S32768x1_0 t (RowScatter.sidx i) (ix1 i) (fun a => match a with | ⟨0, _⟩ => rfl)]
  rfl

/-- The first 395 counts. -/
theorem cntS_apply (t : IVec S32768 32) (c : Fin 395) :
    cntS t (ix1 c) = cnt (fun i => t (ix1 i)) (Fin.castLE (by decide : 395 ≤ 512) c).val := by
  unfold cntS
  rw [extractStridedSlice_apply ![0] (cntV t) slices_S512_S395_0 (ix1 c) (ix1 (Fin.castLE (by decide : 395 ≤ 512) c))
    (fun a => match a with | ⟨0, _⟩ => (Nat.zero_add _).symm)]
  exact cntV_apply t _

/-- A vector of 395 entries broadcast along the columns reads its row's entry. -/
theorem bcastRow_apply (v : FVec Ideal S395 .f32) (c : Fin 395) (d : Fin 512) :
    broadcastInDim S395x512 ![0, 1] bcast_S395x1_S395x512_0_1 (broadcastInDim S395x1 ![0] bcast_S395_S395x1_0 v) (ix2 c d) = v (ix1 c) := by
  rw [broadcastInDim_apply ![0, 1] bcast_S395x1_S395x512_0_1 _ (ix2 c d) (ix2 c (0 : Fin 1))
      (fun a => match a with | ⟨0, _⟩ => rfl | ⟨1, _⟩ => rfl),
    broadcastInDim_apply ![0] bcast_S395_S395x1_0 v (ix2 c (0 : Fin 1)) (ix1 c) (fun a => match a with | ⟨0, _⟩ => rfl)]

/-- The distance at (c, d). -/
theorem absV_apply (A : FVec Ideal S2x512x512 .f32) (cen : FVec Ideal S395x512 .f32) (t : IVec S32768 32) (c : Fin 395) (d : Fin 512) :
    absV A cen t (ix2 c d)
      = FloatOps.hostAbsf (FloatOps.subf
          (FloatOps.hostDivf
            (FloatOps.addf (A (ix3 0 (Fin.castLE (by decide : 395 ≤ 512) c) d)) (A (ix3 1 (Fin.castLE (by decide : 395 ≤ 512) c) d)))
            (FloatOps.maximumf (cnt (fun i => t (ix1 i)) (Fin.castLE (by decide : 395 ≤ 512) c).val) one))
          (cen (ix2 c d))) := by
  show FloatOps.hostAbsf (FloatOps.subf
      (FloatOps.hostDivf
        (extractStridedSlice S395x512 ![0, 0] (sumP A) slices_S512x512_S395x512_0_0 (ix2 c d))
        (broadcastInDim S395x512 ![0, 1] bcast_S395x1_S395x512_0_1
          (broadcastInDim S395x1 ![0] bcast_S395_S395x1_0
            (maximumf (cntS t) (broadcastInDim S395 ![] bcast_S_S395 (constant (F := Ideal) S_ .f32 0x3F800000#32)))) (ix2 c d)))
      (cen (ix2 c d))) = _
  rw [slice2_axis0_apply 0 (sumP A) slices_S512x512_S395x512_0_0 c d (Fin.castLE (by decide : 395 ≤ 512) c) (Nat.zero_add _).symm,
    sumP_apply, bcastRow_apply]
  show FloatOps.hostAbsf (FloatOps.subf (FloatOps.hostDivf _ (FloatOps.maximumf (cntS t (ix1 c)) one)) _) = _
  rw [cntS_apply]

/-- The loss term at (c, d). -/
theorem lossV_apply (A : FVec Ideal S2x512x512 .f32) (cen : FVec Ideal S395x512 .f32) (t : IVec S32768 32) (c : Fin 395) (d : Fin 512) :
    lossV A cen t (ix2 c d)
      = term (FloatOps.addf (A (ix3 0 (Fin.castLE (by decide : 395 ≤ 512) c) d)) (A (ix3 1 (Fin.castLE (by decide : 395 ≤ 512) c) d)))
          (cnt (fun i => t (ix1 i)) (Fin.castLE (by decide : 395 ≤ 512) c).val) (cen (ix2 c d)) := by
  show Scalar.select (FloatOps.cmpf .olt (absV A cen t (ix2 c d)) one)
      (FloatOps.mulf (FloatOps.mulf half (absV A cen t (ix2 c d))) (absV A cen t (ix2 c d)))
      (FloatOps.subf (absV A cen t (ix2 c d)) half) = _
  rw [absV_apply]
  rfl

/-- The weighted term at (c, d). -/
theorem wV_apply (A1 A2 : FVec Ideal S2x512x512 .f32) (cen : FVec Ideal S395x512 .f32) (t : IVec S32768 32) (c : Fin 395) (d : Fin 512) :
    wV A1 A2 cen t (ix2 c d)
      = FloatOps.mulf
          (FloatOps.addf
            (term (FloatOps.addf (A1 (ix3 0 (Fin.castLE (by decide : 395 ≤ 512) c) d)) (A1 (ix3 1 (Fin.castLE (by decide : 395 ≤ 512) c) d)))
              (cnt (fun i => t (ix1 i)) (Fin.castLE (by decide : 395 ≤ 512) c).val) (cen (ix2 c d)))
            (term (FloatOps.addf (A2 (ix3 0 (Fin.castLE (by decide : 395 ≤ 512) c) d)) (A2 (ix3 1 (Fin.castLE (by decide : 395 ≤ 512) c) d)))
              (cnt (fun i => t (ix1 i)) (Fin.castLE (by decide : 395 ≤ 512) c).val) (cen (ix2 c d))))
          (cnt (fun i => t (ix1 i)) (Fin.castLE (by decide : 395 ≤ 512) c).val) := by
  show FloatOps.mulf (FloatOps.addf (lossV A1 cen t (ix2 c d)) (lossV A2 cen t (ix2 c d)))
      (broadcastInDim S395x512 ![0, 1] bcast_S395x1_S395x512_0_1 (broadcastInDim S395x1 ![0] bcast_S395_S395x1_0 (cntS t)) (ix2 c d)) = _
  rw [lossV_apply, lossV_apply, bcastRow_apply, cntS_apply]

/-- THE TAIL OVER VARIABLES is the closed formula. -/
theorem tailV_eq (A1 A2 : FVec Ideal S2x512x512 .f32) (cen : FVec Ideal S395x512 .f32) (t : IVec S32768 32) :
    tailV A1 A2 cen t
      = fun _ => kval (fun g p q => A1 (ix3 g p q)) (fun g p q => A2 (ix3 g p q))
          (fun p => cnt (fun i => t (ix1 i)) p.val) (fun cc d => cen (ix2 cc d)) := by
  funext j
  show FloatOps.mulf
      (Host.reduceAdd (wV A1 A2 cen t) (constant (F := Ideal) S_ .f32 0x00000000#32) reducesTo_S395x512_S_d0_1 h_S_ j) wK = _
  rw [hostReduceAdd_apply, Ideal.hostReduceAdd_total reducesTo_S395x512_S_d0_1 (fun b => b.elim0), sum_idx2]
  unfold kval
  refine congrArg₂ FloatOps.mulf (congrArg₂ (· + ·) rfl (Finset.sum_congr rfl fun c _ => Finset.sum_congr rfl fun d _ => ?_)) rfl
  exact wV_apply A1 A2 cen t c d

/-! ## The operations after the region, opened -/

set_option maxHeartbeats 2000000 in
/-- The result buffer after the operations, from ANY contents W: the tail over variables at the four buffers it reads
    (one pass over the 62 operations, whose shared intermediate results are each read several times). -/
theorem tail_open (W : Valuation τ sig (Elt Ideal)) :
    StableHlo.after (List.flatten [hostOps1, hostOps1_1, hostOps1_2, hostOps1_3, hostOps1_4]) W (Proc.devRef .tc main_v52)
      = tailV (W (Proc.devRef .tc main_v1_0)) (W (Proc.devRef .tc main_v1_1)) (W (Proc.devRef .tc main_arg2)) (W (Proc.devRef .tc main_arg3)) := by
  simp only [hostOps1, hostOps1_1, hostOps1_2, hostOps1_3, hostOps1_4, List.flatten_cons, List.flatten_nil, List.append_nil, List.cons_append, List.nil_append]
  after_results_simp
  simp only [StableHlo.TRef.toBuf, StableHlo.TRef.ofBuf, cast_eq]
  generalize W (Proc.devRef .tc main_v1_0) = A1
  generalize W (Proc.devRef .tc main_v1_1) = A2
  generalize W (Proc.devRef .tc main_arg2) = cen
  generalize W (Proc.devRef .tc main_arg3) = t
  simp only [tailV, wV, lossV, absV, cntS, cntV, sumP]
  rfl

/-! ## The result buffer -/

theorem tail_value (c : Dev nD) :
    Pipeline.afterTail₀ cfgs (dats m) 0 (V0 m) [hostOps1, hostOps1_1, hostOps1_2, hostOps1_3, hostOps1_4] c main_v52
      = fun _ => kval (fun g p q => (dats m 0 c).arrAt 3 cfg0.N (ix3 g p q)) (fun g p q => (dats m 0 c).arrAt 4 cfg0.N (ix3 g p q))
          (fun p => cnt (fun i => m ((c : Thread nD τ).loc main_arg3) (ix1 i)) p.val)
          (fun cc d => m ((c : Thread nD τ).loc main_arg2) (ix2 cc d)) := by
  unfold Pipeline.afterTail₀
  rw [tail_open]
  have h3 : Pipeline.withArrays (cfgs 0).spec c (V0 m c) (fun w => (dats m 0 c).arrAt w (cfgs 0).N) (Proc.devRef .tc main_v1_0)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_v1_1)
      = (dats m 0 c).arrAt 4 cfg0.N := Pipeline.withArrays_arr spec0 launch0.win.arr_inj c _ _ 4
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h1 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  rw [h3, h4, h2, h1]
  exact tailV_eq _ _ _ _

end Cert.KernelIdeal.Tail

end
-- ==== Proof.KernelCases.lean ====
/-
  What each control case of the kernel body leaves in the two carried accumulators and, at a core's last
  block, in the two output blocks: the accumulator plus the one-hot product of the point's blocks (the reset
  case starting from the zero block), and the accumulator re-laid with a leading unit axis.
-/
import proofs.«402360_j36618891166025_3_alg».proof.Proof.Gen.KernelIdeal.Frame
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- The offsets of a whole two-axis block are all zero. -/
theorem zero_offsets2 : (![0, 0] : Fin 2 → Nat) = fun _ => 0 := funext fun a => by fin_cases a <;> rfl

/-- The offsets of a whole three-axis block are all zero. -/
theorem zero_offsets3 : (![0, 0, 0] : Fin 3 → Nat) = fun _ => 0 := funext fun a => by fin_cases a <;> rfl

/-- Reset case, first accumulator: the zero block is stored, read back whole, and the point's one-hot product
    is added to it; the later store covers the block, so the accumulator ends at that sum. -/
theorem sout0_A_0_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i) (x0 : Vec F S1x2048 .i32) (x1 : Vec F S2048x512 .f32) (x2 : Vec F S2048x512 .f32) :
    sout0_A_0 c i arg2 harg2 arg3 harg3 arg4 harg4 arg5 harg5 arg6 harg6 arg7 harg7 arg8 harg8 hc0 hc1 x0 x1 x2 = k0_pay4 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x512) zero_offsets2, View.readCov_unit_zero (S := S512x512) _ zero_offsets2]
  simp only [View.readAt_eq_ld, harg2.read_unread, harg3.read_unread, View.ld_unit_zero (S := S1x2048) zero_offsets2, View.ld_unit_zero (S := S2048x512) zero_offsets2]

/-- Reset case, second accumulator: the same with the second value block and the second zero block. -/
theorem sout0_A_1_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i) (x0 : Vec F S1x2048 .i32) (x1 : Vec F S2048x512 .f32) (x2 : Vec F S2048x512 .f32) :
    sout0_A_1 c i arg2 harg2 arg3 harg3 arg4 harg4 arg5 harg5 arg6 harg6 arg7 harg7 arg8 harg8 hc0 hc1 x0 x1 x2 = k0_pay5 x0 x2 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S512x512) zero_offsets2, View.readCov_unit_zero (S := S512x512) _ zero_offsets2]
  simp only [View.readAt_eq_ld, harg2.read_unread, harg4.read_unread, View.ld_unit_zero (S := S1x2048) zero_offsets2, View.ld_unit_zero (S := S2048x512) zero_offsets2]

/-- Middle case, first accumulator: one store covering the block, of the carried contents plus the point's
    one-hot product; every load reads a whole buffer, so it reads the buffer's contents. -/
theorem sout0_B_0_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : ¬cond0_1 i) (x0 : Vec F S1x2048 .i32) (x1 : Vec F S2048x512 .f32) (x2 : Vec F S2048x512 .f32) (xs0 : Vec F S512x512 .f32) (xs1 : Vec F S512x512 .f32) :
    sout0_B_0 c i arg2 harg2 arg3 harg3 arg4 harg4 arg5 harg5 arg6 harg6 arg7 harg7 arg8 harg8 hc0 hc1 x0 x1 x2 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  rw [View.canon_unit_zero zero_offsets2]
  simp only [View.readAt_eq_ld, harg2.read_unread, harg3.read_unread, harg7.read_unread, View.ld_unit_zero (S := S1x2048) zero_offsets2, View.ld_unit_zero (S := S2048x512) zero_offsets2, View.ld_unit_zero (S := S512x512) zero_offsets2]

/-- Middle case, second accumulator: the same with the second value block. -/
theorem sout0_B_1_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : ¬cond0_1 i) (x0 : Vec F S1x2048 .i32) (x1 : Vec F S2048x512 .f32) (x2 : Vec F S2048x512 .f32) (xs0 : Vec F S512x512 .f32) (xs1 : Vec F S512x512 .f32) :
    sout0_B_1 c i arg2 harg2 arg3 harg3 arg4 harg4 arg5 harg5 arg6 harg6 arg7 harg7 arg8 harg8 hc0 hc1 x0 x1 x2 xs0 xs1 = k0_pay5 x0 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  rw [View.canon_unit_zero zero_offsets2]
  simp only [View.readAt_eq_ld, harg2.read_unread, harg4.read_unread, harg8.read_unread, View.ld_unit_zero (S := S1x2048) zero_offsets2, View.ld_unit_zero (S := S2048x512) zero_offsets2, View.ld_unit_zero (S := S512x512) zero_offsets2]

/-- Last-block case, first accumulator: updated exactly as in the middle case. -/
theorem sout0_C_0_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 : Vec F S1x2048 .i32) (x1 : Vec F S2048x512 .f32) (x2 : Vec F S2048x512 .f32) (xs0 : Vec F S512x512 .f32) (xs1 : Vec F S512x512 .f32) :
    sout0_C_0 c i arg2 harg2 arg3 harg3 arg4 harg4 arg5 harg5 arg6 harg6 arg7 harg7 arg8 harg8 hc0 hc1 x0 x1 x2 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero zero_offsets2]
  simp only [View.readAt_eq_ld, harg2.read_unread, harg3.read_unread, harg7.read_unread, View.ld_unit_zero (S := S1x2048) zero_offsets2, View.ld_unit_zero (S := S2048x512) zero_offsets2, View.ld_unit_zero (S := S512x512) zero_offsets2]

/-- Last-block case, second accumulator: updated exactly as in the middle case. -/
theorem sout0_C_1_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 : Vec F S1x2048 .i32) (x1 : Vec F S2048x512 .f32) (x2 : Vec F S2048x512 .f32) (xs0 : Vec F S512x512 .f32) (xs1 : Vec F S512x512 .f32) :
    sout0_C_1 c i arg2 harg2 arg3 harg3 arg4 harg4 arg5 harg5 arg6 harg6 arg7 harg7 arg8 harg8 hc0 hc1 x0 x1 x2 xs0 xs1 = k0_pay5 x0 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero zero_offsets2]
  simp only [View.readAt_eq_ld, harg2.read_unread, harg4.read_unread, harg8.read_unread, View.ld_unit_zero (S := S1x2048) zero_offsets2, View.ld_unit_zero (S := S2048x512) zero_offsets2, View.ld_unit_zero (S := S512x512) zero_offsets2]

/-- Last-block case, first output block: the accumulator is read back AFTER its update (one covering store, so
    the read is that store's payload) and stored with a leading unit axis. -/
theorem out0_C_3_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 : Vec F S1x2048 .i32) (x1 : Vec F S2048x512 .f32) (x2 : Vec F S2048x512 .f32) (xs0 : Vec F S512x512 .f32) (xs1 : Vec F S512x512 .f32) :
    out0_C_3 c i arg2 harg2 arg3 harg3 arg4 harg4 arg5 harg5 arg6 harg6 arg7 harg7 arg8 harg8 hc0 hc1 x0 x1 x2 xs0 xs1 = k0_pay6 (k0_pay4 x0 x1 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero zero_offsets3, View.readCov_unit_zero (S := S512x512) _ zero_offsets2]
  simp only [View.readAt_eq_ld, harg2.read_unread, harg3.read_unread, harg7.read_unread, View.ld_unit_zero (S := S1x2048) zero_offsets2, View.ld_unit_zero (S := S2048x512) zero_offsets2, View.ld_unit_zero (S := S512x512) zero_offsets2]

/-- Last-block case, second output block: the same for the second accumulator. -/
theorem out0_C_4_eq (c : Dev nD) (i : grid0.Coords) (arg2 : Memref sig .tc .vmem S1x2048 .i32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i) (x0 : Vec F S1x2048 .i32) (x1 : Vec F S2048x512 .f32) (x2 : Vec F S2048x512 .f32) (xs0 : Vec F S512x512 .f32) (xs1 : Vec F S512x512 .f32) :
    out0_C_4 c i arg2 harg2 arg3 harg3 arg4 harg4 arg5 harg5 arg6 harg6 arg7 harg7 arg8 harg8 hc0 hc1 x0 x1 x2 xs0 xs1 = k0_pay7 (k0_pay5 x0 x2 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero zero_offsets3, View.readCov_unit_zero (S := S512x512) _ zero_offsets2]
  simp only [View.readAt_eq_ld, harg2.read_unread, harg4.read_unread, harg8.read_unread, View.ld_unit_zero (S := S1x2048) zero_offsets2, View.ld_unit_zero (S := S2048x512) zero_offsets2, View.ld_unit_zero (S := S512x512) zero_offsets2]

end Cert.KernelIdeal.Cases

end
-- ==== Proof.KernelAcc.lean ====
/-
  The two carried accumulators after each grid point, as a recursion on the point: a point whose block number
  is a multiple of eight starts from the zero block, any other adds to what the point before left.  The
  generated point-by-point contents are this recursion, and at a core's last block the output blocks are the
  accumulators re-laid.
-/
import proofs.«402360_j36618891166025_3_alg».proof.Proof.KernelCases

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The first accumulator after point n. -/
def acc1 (c : Dev nD) : (n : ℕ) → n < cfg0.N → Vec F S512x512 .f32
  | 0, h => k0_pay4 (iblk m c 0 ⟨0, h⟩) (iblk m c 1 ⟨0, h⟩) (k0_pay1 (F := F))
  | n + 1, h =>
    if (n + 1) % 8 = 0 then k0_pay4 (iblk m c 0 ⟨n + 1, h⟩) (iblk m c 1 ⟨n + 1, h⟩) (k0_pay1 (F := F))
    else k0_pay4 (iblk m c 0 ⟨n + 1, h⟩) (iblk m c 1 ⟨n + 1, h⟩) (acc1 c n (Nat.lt_of_succ_lt h))

/-- The second accumulator after point n. -/
def acc2 (c : Dev nD) : (n : ℕ) → n < cfg0.N → Vec F S512x512 .f32
  | 0, h => k0_pay5 (iblk m c 0 ⟨0, h⟩) (iblk m c 2 ⟨0, h⟩) (k0_pay2 (F := F))
  | n + 1, h =>
    if (n + 1) % 8 = 0 then k0_pay5 (iblk m c 0 ⟨n + 1, h⟩) (iblk m c 2 ⟨n + 1, h⟩) (k0_pay2 (F := F))
    else k0_pay5 (iblk m c 0 ⟨n + 1, h⟩) (iblk m c 2 ⟨n + 1, h⟩) (acc2 c n (Nat.lt_of_succ_lt h))

/-- The first accumulator after the first point: the zero block plus that point's product. -/
theorem acc1_zero (c : Dev nD) (h : 0 < cfg0.N) :
    acc1 m c 0 h = k0_pay4 (iblk m c 0 ⟨0, h⟩) (iblk m c 1 ⟨0, h⟩) (k0_pay1 (F := F)) := by
  rw [acc1]

/-- At a point whose block number is a multiple of eight the first accumulator starts again from the zero block. -/
theorem acc1_reset (c : Dev nD) (n : ℕ) (h : n + 1 < cfg0.N) (h0 : (n + 1) % 8 = 0) :
    acc1 m c (n + 1) h = k0_pay4 (iblk m c 0 ⟨n + 1, h⟩) (iblk m c 1 ⟨n + 1, h⟩) (k0_pay1 (F := F)) := by
  rw [acc1, if_pos h0]

/-- At any other point it adds that point's product to what the point before left. -/
theorem acc1_carry (c : Dev nD) (n : ℕ) (h : n + 1 < cfg0.N) (h0 : ¬(n + 1) % 8 = 0) :
    acc1 m c (n + 1) h
      = k0_pay4 (iblk m c 0 ⟨n + 1, h⟩) (iblk m c 1 ⟨n + 1, h⟩) (acc1 m c n (Nat.lt_of_succ_lt h)) := by
  rw [acc1, if_neg h0]

/-- The second accumulator after the first point. -/
theorem acc2_zero (c : Dev nD) (h : 0 < cfg0.N) :
    acc2 m c 0 h = k0_pay5 (iblk m c 0 ⟨0, h⟩) (iblk m c 2 ⟨0, h⟩) (k0_pay2 (F := F)) := by
  rw [acc2]

/-- The second accumulator at a point whose block number is a multiple of eight. -/
theorem acc2_reset (c : Dev nD) (n : ℕ) (h : n + 1 < cfg0.N) (h0 : (n + 1) % 8 = 0) :
    acc2 m c (n + 1) h = k0_pay5 (iblk m c 0 ⟨n + 1, h⟩) (iblk m c 2 ⟨n + 1, h⟩) (k0_pay2 (F := F)) := by
  rw [acc2, if_pos h0]

/-- The second accumulator at any other point. -/
theorem acc2_carry (c : Dev nD) (n : ℕ) (h : n + 1 < cfg0.N) (h0 : ¬(n + 1) % 8 = 0) :
    acc2 m c (n + 1) h
      = k0_pay5 (iblk m c 0 ⟨n + 1, h⟩) (iblk m c 2 ⟨n + 1, h⟩) (acc2 m c n (Nat.lt_of_succ_lt h)) := by
  rw [acc2, if_neg h0]

theorem outs_acc (c : Dev nD) : ∀ (n : ℕ) (h : n < cfg0.N),
    (outsAt0 m c n h).2.2.1 = acc1 m c n h ∧ (outsAt0 m c n h).2.2.2 = acc2 m c n h := by
  intro n
  induction n with
  | zero =>
    intro h
    have h1 : ¬(⟨0, h⟩ : Fin cfg0.N).val % 8 = 7 := (by decide : ¬0 % 8 = 7)
    rw [outsAt0_A m c ⟨0, h⟩ rfl h1]
    dsimp only
    exact ⟨(Cases.sout0_A_0_eq (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (fun e => h1 ((hcond0_1 ⟨0, h⟩).mp e)) (iblk m c 0 ⟨0, h⟩) (iblk m c 1 ⟨0, h⟩) (iblk m c 2 ⟨0, h⟩)).trans (acc1_zero m c h).symm,
      (Cases.sout0_A_1_eq (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) ((hcond0_0 ⟨0, h⟩).mpr rfl) (fun e => h1 ((hcond0_1 ⟨0, h⟩).mp e)) (iblk m c 0 ⟨0, h⟩) (iblk m c 1 ⟨0, h⟩) (iblk m c 2 ⟨0, h⟩)).trans (acc2_zero m c h).symm⟩
  | succ n ih =>
    intro h
    have hN : cfg0.N = 16 := N_0
    obtain ⟨ih1, ih2⟩ := ih (Nat.lt_of_succ_lt h)
    by_cases h0 : (n + 1) % 8 = 0
    · have h1 : ¬(n + 1) % 8 = 7 := by omega
      rw [outsAt0_A m c ⟨n + 1, h⟩ h0 h1]
      dsimp only
      exact ⟨(Cases.sout0_A_0_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (fun e => h1 ((hcond0_1 ⟨n + 1, h⟩).mp e)) (iblk m c 0 ⟨n + 1, h⟩) (iblk m c 1 ⟨n + 1, h⟩) (iblk m c 2 ⟨n + 1, h⟩)).trans (acc1_reset m c n h h0).symm,
        (Cases.sout0_A_1_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) ((hcond0_0 ⟨n + 1, h⟩).mpr h0) (fun e => h1 ((hcond0_1 ⟨n + 1, h⟩).mp e)) (iblk m c 0 ⟨n + 1, h⟩) (iblk m c 1 ⟨n + 1, h⟩) (iblk m c 2 ⟨n + 1, h⟩)).trans (acc2_reset m c n h h0).symm⟩
    · by_cases h1 : (n + 1) % 8 = 7
      · rw [outsAt0_C m c ⟨n + 1, h⟩ h0 h1]
        dsimp only
        refine ⟨(Cases.sout0_C_0_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_,
          (Cases.sout0_C_1_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_⟩
        · rw [ih1, acc1_carry m c n h h0]
        · rw [ih2, acc2_carry m c n h h0]
      · rw [outsAt0_B m c ⟨n + 1, h⟩ h0 h1]
        dsimp only
        refine ⟨(Cases.sout0_B_0_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) (fun e => h1 ((hcond0_1 ⟨n + 1, h⟩).mp e)) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_,
          (Cases.sout0_B_1_eq (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun e => h0 ((hcond0_0 ⟨n + 1, h⟩).mp e)) (fun e => h1 ((hcond0_1 ⟨n + 1, h⟩).mp e)) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2).trans ?_⟩
        · rw [ih1, acc1_carry m c n h h0]
        · rw [ih2, acc2_carry m c n h h0]

theorem outs_o3 (c : Dev nD) (t : Fin cfg0.N) (h7 : t.val % 8 = 7) :
    (outsAt0 m c t.val t.isLt).1 = k0_pay6 (acc1 m c t.val t.isLt) := by
  obtain ⟨n, hn⟩ := t
  cases n with
  | zero => exact absurd h7 (by decide : ¬0 % 8 = 7)
  | succ n =>
    have hN : cfg0.N = 16 := N_0
    have h1 : (n + 1) % 8 = 7 := h7
    have h0 : ¬(n + 1) % 8 = 0 := by omega
    rw [outsAt0_C m c ⟨n + 1, hn⟩ h0 h1]
    dsimp only
    rw [acc1_carry m c n hn h0, ← (outs_acc m c n (Nat.lt_of_succ_lt hn)).1]
    exact Cases.out0_C_3_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun e => h0 ((hcond0_0 ⟨n + 1, hn⟩).mp e)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2

theorem outs_o4 (c : Dev nD) (t : Fin cfg0.N) (h7 : t.val % 8 = 7) :
    (outsAt0 m c t.val t.isLt).2.1 = k0_pay7 (acc2 m c t.val t.isLt) := by
  obtain ⟨n, hn⟩ := t
  cases n with
  | zero => exact absurd h7 (by decide : ¬0 % 8 = 7)
  | succ n =>
    have hN : cfg0.N = 16 := N_0
    have h1 : (n + 1) % 8 = 7 := h7
    have h0 : ¬(n + 1) % 8 = 0 := by omega
    rw [outsAt0_C m c ⟨n + 1, hn⟩ h0 h1]
    dsimp only
    rw [acc2_carry m c n hn h0, ← (outs_acc m c n (Nat.lt_of_succ_lt hn)).2]
    exact Cases.out0_C_4_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun e => h0 ((hcond0_0 ⟨n + 1, hn⟩).mp e)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2.2.1 (outsAt0 m c n (Nat.lt_of_succ_lt hn)).2.2.2

end Cert.KernelIdeal.Acc

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KernelPay.lean ====
/-
  The kernel body's payloads read at an entry, over the extended reals: the reset block is zero; the
  accumulator update at class p, feature q is the accumulator there plus the sum, over the block's 2048 rows, of
  the rows whose label word reads p (the one-hot matrix times the feature block, the format changes the
  identity); the flush re-lays the accumulator with a leading unit axis.
-/
import proofs.«402360_j36618891166025_3_alg».proof.Proof.Gen.KernelIdeal.Skeleton
import proofs.«402360_j36618891166025_3_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Pay

open Cert.KernelIdeal Cert.KernelIdeal.Gen Idealize.ShloMosaic.ValueIdx

theorem pay1_apply (j : S512x512.Idx) : k0_pay1 (F := Ideal) j = 0 := by
  unfold k0_pay1
  rw [shapeCast_self]
  exact Ideal.ofBits_zero_f32

theorem pay2_apply (j : S512x512.Idx) : k0_pay2 (F := Ideal) j = 0 := by
  unfold k0_pay2
  rw [shapeCast_self]
  exact Ideal.ofBits_zero_f32

/-- A 32-bit word is the word of a class number below 512 exactly when it reads, signed, as that number. -/
theorem word_eq_iff (w : BitVec 32) (p : Fin 512) : w = BitVec.ofNat 32 p.val ↔ w.toInt = (p.val : ℤ) := by
  have hp := p.isLt
  have hw := w.isLt
  constructor
  · intro h
    subst h
    unfold BitVec.toInt
    rw [BitVec.toNat_ofNat]
    omega
  · intro h
    apply BitVec.eq_of_toNat_eq
    rw [BitVec.toNat_ofNat]
    unfold BitVec.toInt at h
    omega

/-- An integer comparison of two vectors reads at an index as the comparison of the two words there. -/
theorem cmpi_apply {s : Shape} {w : Nat} (c : CmpIPredicate) (a b : IVec s w) (i : s.Idx) :
    cmpi c a b i = IntOp.cmpi c (a i) (b i) := rfl

/-- Comparing two words for equality gives the one-bit word 1 when they are equal and 0 otherwise. -/
theorem cmpi_eq_word {w : Nat} (a b : BitVec w) : IntOp.cmpi .eq a b = if a = b then 1#1 else 0#1 := by
  show BitVec.ofBool (a == b) = _
  by_cases h : a = b
  · rw [if_pos h, beq_iff_eq.mpr h]; rfl
  · rw [if_neg h, beq_eq_false_iff_ne.mpr h]; rfl

/-- The one-hot factor at class p, row k: one when row k's label word reads p, zero otherwise. The label row is
    broadcast down the 512 classes and compared with the class number; the comparison bit, widened and read as a
    signed integer, is 1 or 0, and the two format changes keep it. -/
theorem onehot_apply (x0 : Vec Ideal S1x2048 .i32) (p : Fin 512) (k : Fin 2048) :
    k0_pay3 (F := Ideal) x0 (ix2 p k) = if (x0 (ix2 (0 : Fin 1) k)).toInt = (p.val : ℤ) then (1 : EReal) else 0 := by
  unfold k0_pay3
  rw [truncf_apply, sitofp_apply, extui_apply, cmpi_apply, shapeCast_self, broadcastTo_1b_ab_apply, iota_single_apply]
  show (((BitVec.setWidth 32 (IntOp.cmpi .eq (x0 (ix2 (0 : Fin 1) k)) (BitVec.ofNat 32 p.val))).toInt : ℝ) : EReal) = _
  rw [cmpi_eq_word]
  by_cases h : x0 (ix2 (0 : Fin 1) k) = BitVec.ofNat 32 p.val
  · rw [if_pos h, if_pos ((word_eq_iff _ p).1 h), show (BitVec.setWidth 32 1#1).toInt = 1 by decide,
      Int.cast_one, EReal.coe_one]
  · rw [if_neg h, if_neg (fun h' => h ((word_eq_iff _ p).2 h')), show (BitVec.setWidth 32 0#1).toInt = 0 by decide,
      Int.cast_zero, EReal.coe_zero]

/-- The product's dimension numbers are those of a plain matrix product. -/
theorem dot_isPlain : Cert.Lib.PlainProduct.IsPlain dot_S512x2048_S2048x512_S512x512_1_0_0_1_n_n :=
  ⟨rfl, rfl, rfl, rfl, rfl, rfl⟩

theorem pay4_apply (x0 : Vec Ideal S1x2048 .i32) (x1 : Vec Ideal S2048x512 .f32) (xs : Vec Ideal S512x512 .f32)
    (p q : Fin 512) :
    k0_pay4 x0 x1 xs (ix2 p q)
      = xs (ix2 p q) + ∑ k : Fin 2048, (if (x0 (ix2 (0 : Fin 1) k)).toInt = (p.val : ℤ) then x1 (ix2 k q) else 0) := by
  unfold k0_pay4
  rw [shapeCast_self, addf_apply]
  simp only [matmul]
  rw [Cert.Lib.PlainProduct.matmul_zero_apply dot_isPlain]
  congr 1
  refine Finset.sum_congr rfl fun k _ => ?_
  rw [onehot_apply, truncf_apply]
  split
  · rw [one_mul]
  · rw [zero_mul]

theorem pay5_apply (x0 : Vec Ideal S1x2048 .i32) (x2 : Vec Ideal S2048x512 .f32) (xs : Vec Ideal S512x512 .f32)
    (p q : Fin 512) :
    k0_pay5 x0 x2 xs (ix2 p q)
      = xs (ix2 p q) + ∑ k : Fin 2048, (if (x0 (ix2 (0 : Fin 1) k)).toInt = (p.val : ℤ) then x2 (ix2 k q) else 0) := by
  unfold k0_pay5
  rw [shapeCast_self, addf_apply]
  simp only [matmul]
  rw [Cert.Lib.PlainProduct.matmul_zero_apply dot_isPlain]
  congr 1
  refine Finset.sum_congr rfl fun k _ => ?_
  rw [onehot_apply, truncf_apply]
  split
  · rw [one_mul]
  · rw [zero_mul]

theorem pay6_apply (v : Vec Ideal S512x512 .f32) (g : Fin 1) (p q : Fin 512) :
    k0_pay6 v (ix3 g p q) = v (ix2 p q) := by
  unfold k0_pay6
  exact shapeCast_ab_1ab_apply v _ g p q

theorem pay7_apply (v : Vec Ideal S512x512 .f32) (g : Fin 1) (p q : Fin 512) :
    k0_pay7 v (ix3 g p q) = v (ix2 p q) := by
  unfold k0_pay7
  exact shapeCast_ab_1ab_apply v _ g p q

end Cert.KernelIdeal.Pay

end
-- ==== Proof.KernelBlk.lean ====
/-
  The three input windows' blocks at a grid point, read at an entry: point t stages rows
  `2048 t … 2048 t + 2047` of the label vector (as one row of 2048 words) and of the two feature matrices.
-/
import proofs.«402360_j36618891166025_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blk

open Cert.KernelIdeal Cert.KernelIdeal.Gen Idealize.ShloMosaic.ValueIdx

variable {F : FTy → Type} [FloatOps F]
variable (m : (ℓ : Loc nD τ sig) → Buf (Elt F) ℓ)

/-- Row k of point t's block, as a row of the whole arrays. -/
def rowAt (t : Fin cfg0.N) (k : Fin 2048) : Fin 32768 :=
  ⟨t.val * 2048 + k.val, by have h := t.isLt; have h16 : cfg0.N = 16 := N_0; have := k.isLt; omega⟩

/-- The blocks at their literal types. -/
abbrev tblk (c : Dev nD) (t : Fin cfg0.N) : Vec F S1x2048 .i32 := iblk m c 0 t
abbrev x1blk (c : Dev nD) (t : Fin cfg0.N) : Vec F S2048x512 .f32 := iblk m c 1 t
abbrev x2blk (c : Dev nD) (t : Fin cfg0.N) : Vec F S2048x512 .f32 := iblk m c 2 t

/-- Where the three input windows sit at point t, decided once over the grid: the label window at column block t of
    its one row, each feature window at row block t of its one column block. -/
theorem idx_t : ∀ t : Fin cfg0.N, win0_0.index t (0 : Fin 2) = 0 ∧ win0_0.index t 1 = t.val :=
  (by decide +kernel : ∀ t : Fin grid0.N, win0_0.index t (0 : Fin 2) = 0 ∧ win0_0.index t 1 = t.val)
theorem idx_x1 : ∀ t : Fin cfg0.N, win0_1.index t (0 : Fin 2) = t.val ∧ win0_1.index t 1 = 0 :=
  (by decide +kernel : ∀ t : Fin grid0.N, win0_1.index t (0 : Fin 2) = t.val ∧ win0_1.index t 1 = 0)
theorem idx_x2 : ∀ t : Fin cfg0.N, win0_2.index t (0 : Fin 2) = t.val ∧ win0_2.index t 1 = 0 :=
  (by decide +kernel : ∀ t : Fin grid0.N, win0_2.index t (0 : Fin 2) = t.val ∧ win0_2.index t 1 = 0)

/-- The label array as the region finds it: the [32768] argument viewed as one row of 32768 words. -/
theorem V_labels (c : Dev nD) :
    (V m c main_v0 : S1x32768.Idx → _) = shapeCast S1x32768 (m ((c : Thread nD τ).loc main_arg3)) shapeCasts_S32768_S1x32768 := by
  show StableHlo.after hostOps0 (fun b => m (c, b)) (Proc.devRef .tc main_v0) = _
  after_results
  rfl

theorem tblk_apply (c : Dev nD) (t : Fin cfg0.N) (k : Fin 2048) :
    tblk m c t (ix2 (0 : Fin 1) k) = m ((c : Thread nD τ).loc main_arg3) (ix1 (rowAt t k)) := by
  have hi := idx_t t
  unfold tblk iblk
  rw [View.read_apply]
  show V m c main_v0 _ = _
  rw [V_labels]
  refine Eq.trans (congrArg _ ?_) (shapeCast_a_1a_apply _ shapeCasts_S32768_S1x32768 (0 : Fin 1) (rowAt t k))
  funext a
  apply Fin.ext
  match a with
  | ⟨0, _⟩ => show win0_0.index t 0 * 1 + 1 * 0 = 0; rw [hi.1]
  | ⟨1, _⟩ => show win0_0.index t 1 * 2048 + 1 * k.val = t.val * 2048 + k.val; rw [hi.2]; omega

theorem x1blk_apply (c : Dev nD) (t : Fin cfg0.N) (k : Fin 2048) (q : Fin 512) :
    x1blk m c t (ix2 k q) = m ((c : Thread nD τ).loc main_arg0) (ix2 (rowAt t k) q) := by
  have hi := idx_x1 t
  unfold x1blk iblk
  rw [View.read_apply]
  show V m c main_arg0 _ = m (c.tc.loc main_arg0) _
  rw [V_main_arg0]
  congr 1
  funext a
  apply Fin.ext
  match a with
  | ⟨0, _⟩ => show win0_1.index t 0 * 2048 + 1 * k.val = t.val * 2048 + k.val; rw [hi.1]; omega
  | ⟨1, _⟩ => show win0_1.index t 1 * 512 + 1 * q.val = q.val; rw [hi.2]; omega

theorem x2blk_apply (c : Dev nD) (t : Fin cfg0.N) (k : Fin 2048) (q : Fin 512) :
    x2blk m c t (ix2 k q) = m ((c : Thread nD τ).loc main_arg1) (ix2 (rowAt t k) q) := by
  have hi := idx_x2 t
  unfold x2blk iblk
  rw [View.read_apply]
  show V m c main_arg1 _ = m (c.tc.loc main_arg1) _
  rw [V_main_arg1]
  congr 1
  funext a
  apply Fin.ext
  match a with
  | ⟨0, _⟩ => show win0_2.index t 0 * 2048 + 1 * k.val = t.val * 2048 + k.val; rw [hi.1]; omega
  | ⟨1, _⟩ => show win0_2.index t 1 * 512 + 1 * q.val = q.val; rw [hi.2]; omega

end Cert.KernelIdeal.Blk

end
-- ==== Proof.KernelSum.lean ====
/-
  The accumulators at a core's last block, in closed form: starting from the zero block at the core's first
  block and adding each block's one-hot product, the first accumulator at class p, feature q is the one-hot
  partial sum of the core's 8 x 2048 rows.
-/
import proofs.«402360_j36618891166025_3_alg».proof.Proof.KernelAcc
import proofs.«402360_j36618891166025_3_alg».proof.Proof.KernelPay
import proofs.«402360_j36618891166025_3_alg».proof.Proof.KernelBlk
import proofs.«402360_j36618891166025_3_alg».proof.Proof.Spec

set_option maxRecDepth 16384

noncomputable section

open Idealize.ShloMosaic Idealize.ShloMosaic.TcCoe Idealize.SL.Sem
open Idealize.ShloMosaic.Pipeline (Dat)

namespace Cert.KernelIdeal.Sum

open Cert.KernelIdeal Cert.KernelIdeal.Gen Idealize.ShloMosaic.ValueIdx Cert.SegLoss

variable (m : (ℓ : Loc nD τ sig) → Buf (Elt Ideal) ℓ)

/-- The label words and the two feature matrices the program is launched with, by plain coordinates. -/
abbrev T (c : Dev nD) : Fin 32768 → BitVec 32 := fun i => m ((c : Thread nD τ).loc main_arg3) (ix1 i)
abbrev X1 (c : Dev nD) : Fin 32768 → Fin 512 → E := fun i q => m ((c : Thread nD τ).loc main_arg0) (ix2 i q)
abbrev X2 (c : Dev nD) : Fin 32768 → Fin 512 → E := fun i q => m ((c : Thread nD τ).loc main_arg1) (ix2 i q)

/-- The one-hot sum of block n: over its 2048 rows, the rows of x whose label word reads p (zero past the grid). -/
private def blkSum (c : Dev nD) (x : Fin 32768 → Fin 512 → E) (p q : Fin 512) (n : ℕ) : E :=
  if h : n < cfg0.N then
    ∑ k : Fin 2048, (if (T m c (Blk.rowAt ⟨n, h⟩ k)).toInt = (p.val : ℤ) then x (Blk.rowAt ⟨n, h⟩ k) q else 0)
  else 0

/-- Block 8 g + s is the s-th block of core g: its one-hot sum by the core's row numbering. -/
private theorem blkSum_rowOf (c : Dev nD) (x : Fin 32768 → Fin 512 → E) (p q : Fin 512) (g : Fin 2) (s : Fin 8) :
    blkSum m c x p q (8 * g.val + s.val)
      = ∑ k : Fin 2048, (if (T m c (rowOf g s k)).toInt = (p.val : ℤ) then x (rowOf g s k) q else 0) := by
  have hN : cfg0.N = 16 := N_0
  have hlt : 8 * g.val + s.val < cfg0.N := by have := g.isLt; have := s.isLt; omega
  unfold blkSum
  rw [dif_pos hlt]
  refine Finset.sum_congr rfl (fun k _ => ?_)
  have hrow : Blk.rowAt ⟨8 * g.val + s.val, hlt⟩ k = rowOf g s k := by
    refine Fin.ext ?_
    show (8 * g.val + s.val) * 2048 + k.val = (g.val * 8 + s.val) * 2048 + k.val
    omega
  rw [hrow]

/-- The sum of the one-hot sums of a core's eight blocks is the core's one-hot partial sum. -/
private theorem sum_blkSum (c : Dev nD) (x : Fin 32768 → Fin 512 → E) (p q : Fin 512) (g : Fin 2) :
    ∑ s' ∈ Finset.range (7 + 1), blkSum m c x p q (8 * g.val + s') = part x (T m c) g p q := by
  rw [Finset.sum_range]
  unfold part
  exact Finset.sum_congr rfl (fun s _ => blkSum_rowOf m c x p q g s)

/-! ## The first accumulator -/

/-- One update of the first accumulator at point n adds block n's one-hot sum. -/
private theorem pay4_blk (c : Dev nD) (n : ℕ) (h : n < cfg0.N) (xs : Vec Ideal S512x512 .f32) (p q : Fin 512) :
    k0_pay4 (iblk m c 0 ⟨n, h⟩) (iblk m c 1 ⟨n, h⟩) xs (ix2 p q) = xs (ix2 p q) + blkSum m c (X1 m c) p q n := by
  show k0_pay4 (Blk.tblk m c ⟨n, h⟩) (Blk.x1blk m c ⟨n, h⟩) xs (ix2 p q) = _
  rw [Pay.pay4_apply (Blk.tblk m c ⟨n, h⟩) (Blk.x1blk m c ⟨n, h⟩) xs p q]
  congr 1
  unfold blkSum
  rw [dif_pos h]
  refine Finset.sum_congr rfl (fun k _ => ?_)
  rw [Blk.tblk_apply m c ⟨n, h⟩ k, Blk.x1blk_apply m c ⟨n, h⟩ k q]

/-- At a point whose number is a multiple of eight the first accumulator is the zero block updated once. -/
private theorem acc1_at_reset (c : Dev nD) (n : ℕ) (h : n < cfg0.N) (h0 : n % 8 = 0) :
    Acc.acc1 m c n h = k0_pay4 (iblk m c 0 ⟨n, h⟩) (iblk m c 1 ⟨n, h⟩) (k0_pay1 (F := Ideal)) := by
  cases n with
  | zero => exact Acc.acc1_zero m c h
  | succ n => exact Acc.acc1_reset m c n h h0

/-- After block s of core g the first accumulator holds the one-hot sums of the core's blocks 0 … s. -/
private theorem acc1_sum (c : Dev nD) (g : ℕ) (p q : Fin 512) : ∀ (s : ℕ) (hs : s < 8) (h : 8 * g + s < cfg0.N),
    Acc.acc1 m c (8 * g + s) h (ix2 p q) = ∑ s' ∈ Finset.range (s + 1), blkSum m c (X1 m c) p q (8 * g + s') := by
  intro s
  induction s with
  | zero =>
    intro hs h
    rw [acc1_at_reset m c (8 * g + 0) h (by omega), pay4_blk m c (8 * g + 0) h _ p q, Pay.pay1_apply, zero_add,
      Finset.sum_range_one]
  | succ s ih =>
    intro hs h
    have hne : ¬(8 * g + s + 1) % 8 = 0 := by omega
    refine (congrFun (Acc.acc1_carry m c (8 * g + s) h hne) (ix2 p q)).trans ?_
    rw [pay4_blk m c (8 * g + s + 1) h _ p q, ih (by omega) (Nat.lt_of_succ_lt h), Finset.sum_range_succ _ (s + 1)]
    rfl

theorem acc1_last (c : Dev nD) (g : Fin 2) (h : 8 * g.val + 7 < cfg0.N) (p q : Fin 512) :
    Acc.acc1 m c (8 * g.val + 7) h (ix2 p q) = part (X1 m c) (T m c) g p q := by
  rw [acc1_sum m c g.val p q 7 (by omega) h]
  exact sum_blkSum m c (X1 m c) p q g

/-! ## The second accumulator -/

/-- One update of the second accumulator at point n adds block n's one-hot sum. -/
private theorem pay5_blk (c : Dev nD) (n : ℕ) (h : n < cfg0.N) (xs : Vec Ideal S512x512 .f32) (p q : Fin 512) :
    k0_pay5 (iblk m c 0 ⟨n, h⟩) (iblk m c 2 ⟨n, h⟩) xs (ix2 p q) = xs (ix2 p q) + blkSum m c (X2 m c) p q n := by
  show k0_pay5 (Blk.tblk m c ⟨n, h⟩) (Blk.x2blk m c ⟨n, h⟩) xs (ix2 p q) = _
  rw [Pay.pay5_apply (Blk.tblk m c ⟨n, h⟩) (Blk.x2blk m c ⟨n, h⟩) xs p q]
  congr 1
  unfold blkSum
  rw [dif_pos h]
  refine Finset.sum_congr rfl (fun k _ => ?_)
  rw [Blk.tblk_apply m c ⟨n, h⟩ k, Blk.x2blk_apply m c ⟨n, h⟩ k q]

/-- At a point whose number is a multiple of eight the second accumulator is the zero block updated once. -/
private theorem acc2_at_reset (c : Dev nD) (n : ℕ) (h : n < cfg0.N) (h0 : n % 8 = 0) :
    Acc.acc2 m c n h = k0_pay5 (iblk m c 0 ⟨n, h⟩) (iblk m c 2 ⟨n, h⟩) (k0_pay2 (F := Ideal)) := by
  cases n with
  | zero => exact Acc.acc2_zero m c h
  | succ n => exact Acc.acc2_reset m c n h h0

/-- After block s of core g the second accumulator holds the one-hot sums of the core's blocks 0 … s. -/
private theorem acc2_sum (c : Dev nD) (g : ℕ) (p q : Fin 512) : ∀ (s : ℕ) (hs : s < 8) (h : 8 * g + s < cfg0.N),
    Acc.acc2 m c (8 * g + s) h (ix2 p q) = ∑ s' ∈ Finset.range (s + 1), blkSum m c (X2 m c) p q (8 * g + s') := by
  intro s
  induction s with
  | zero =>
    intro hs h
    rw [acc2_at_reset m c (8 * g + 0) h (by omega), pay5_blk m c (8 * g + 0) h _ p q, Pay.pay2_apply, zero_add,
      Finset.sum_range_one]
  | succ s ih =>
    intro hs h
    have hne : ¬(8 * g + s + 1) % 8 = 0 := by omega
    refine (congrFun (Acc.acc2_carry m c (8 * g + s) h hne) (ix2 p q)).trans ?_
    rw [pay5_blk m c (8 * g + s + 1) h _ p q, ih (by omega) (Nat.lt_of_succ_lt h), Finset.sum_range_succ _ (s + 1)]
    rfl

theorem acc2_last (c : Dev nD) (g : Fin 2) (h : 8 * g.val + 7 < cfg0.N) (p q : Fin 512) :
    Acc.acc2 m c (8 * g.val + 7) h (ix2 p q) = part (X2 m c) (T m c) g p q := by
  rw [acc2_sum m c g.val p q 7 (by omega) h]
  exact sum_blkSum m c (X2 m c) p q g

end Cert.KernelIdeal.Sum

end
-- ==== Proof.KernelArr.lean ====
/-
  The two result arrays of the region: core g's block, written back once after the core's last row block,
  holds the core's one-hot partial sums.
-/
import proofs.«402360_j36618891166025_3_alg».proof.Proof.KernelSum

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx Cert.SegLoss Cert.KernelIdeal.Sum

variable (m : (ℓ : Loc nD τ sig) → Buf (Elt Ideal) ℓ)

/-- Window 3's block index at a point: the core number (the point's block number divided by eight) on the
    leading axis, zero on the two others. -/
theorem idx_facts3 : ∀ t : Fin cfg0.N, win0_3.index t (0 : Fin 3) = t.val / 8
    ∧ win0_3.index t (1 : Fin 3) = 0 ∧ win0_3.index t (2 : Fin 3) = 0 :=
  (by decide +kernel : ∀ t : Fin grid0.N, _)

/-- The whole result array 3: entry (g, p, q) is core g's one-hot partial sum at class p, feature q. -/
abbrev G3 (c : Dev nD) : S2x512x512.Idx → E := fun j => part (X1 m c) (T m c) (j 0) (j 1) (j 2)

/-- The accumulator after core g's last block (point 8 g + 7), at class p and feature q, is that partial sum. -/
theorem acc1_at (c : Dev nD) (t : Fin cfg0.N) (g : Fin 2) (ht : t.val = 8 * g.val + 7) (p q : Fin 512) :
    Acc.acc1 m c t.val t.isLt (ix2 p q) = part (X1 m c) (T m c) g p q := by
  obtain ⟨n, hn⟩ := t
  dsimp only at ht
  subst ht
  exact acc1_last m c g hn p q

/-- What a point that writes window 3 back writes: its block of the whole array. The point is a core's last
    (8 g + 7), the block is the accumulator re-laid with a leading unit axis, and the block sits at (g, 0, 0). -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : cfg0.N = 16 := N_0
  have hlt : t.val < 16 := lt_of_lt_of_eq t.isLt hN
  have hg : t.val / 8 < 2 := by omega
  obtain ⟨e0, e1, e2⟩ := idx_facts3 t
  show (cfg0.win 3).cut (grid0.coords t) ((dats m 0 c).after 3 t) = _
  rw [after0_3, Acc.outs_o3 m c t h7]
  funext y
  obtain ⟨y0, p, q, rfl⟩ : ∃ (y0 : Fin 1) (p q : Fin 512), y = ix3 y0 p q := ⟨y 0, y 1, y 2, eq_ix3 y⟩
  have hemb : ((cfg0.win 3).blk t).view.emb (ix3 y0 p q) = ix3 (⟨t.val / 8, hg⟩ : Fin 2) p q := by
    funext a; apply Fin.ext
    match a with
    | ⟨0, _⟩ => show win0_3.index t (0 : Fin 3) * 1 + 1 * y0.val = t.val / 8; have := y0.isLt; omega
    | ⟨1, _⟩ => show win0_3.index t (1 : Fin 3) * 512 + 1 * p.val = p.val; omega
    | ⟨2, _⟩ => show win0_3.index t (2 : Fin 3) * 512 + 1 * q.val = q.val; omega
  show k0_pay6 (Acc.acc1 m c t.val t.isLt) (ix3 y0 p q) = G3 m c (((cfg0.win 3).blk t).view.emb (ix3 y0 p q))
  exact ((Pay.pay6_apply (Acc.acc1 m c t.val t.isLt) y0 p q).trans
    (acc1_at m c t ⟨t.val / 8, hg⟩ (by show t.val = 8 * (t.val / 8) + 7; omega) p q)).trans
    (congrArg (G3 m c) hemb).symm

/-- Every entry of result array 3 lies in the block some point writes back: entry (g, p, q) in that of core
    g's last point. -/
theorem cover3 (i : S2x512x512.Idx) :
    ∃ t : Fin cfg0.N, (cfg0.win 3).flush t = true ∧ i ∈ ((cfg0.win 3).blk t).view.set := by
  have hN : cfg0.N = 16 := N_0
  have hi0 : (i 0).val < 2 := (i 0).isLt
  have hi1 : (i 1).val < 512 := (i 1).isLt
  have hi2 : (i 2).val < 512 := (i 2).isLt
  obtain ⟨t, ht⟩ : ∃ t : Fin cfg0.N, t.val = 8 * (i 0).val + 7 := ⟨⟨8 * (i 0).val + 7, by omega⟩, rfl⟩
  obtain ⟨e0, e1, e2⟩ := idx_facts3 t
  refine ⟨t, (flush0_3 t).mpr (by omega), ?_⟩
  show i ∈ ((View.whole main_v1_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

theorem final3 (c : Dev nD) (g : Fin 2) (p q : Fin 512) :
    (dats m 0 c).arrAt 3 cfg0.N (ix3 g p q) = part (X1 m c) (T m c) g p q := by
  exact congrFun ((dats m 0 c).arrAt_eq_of_cover 3 (G3 m c) (flushed3_eq m c) (cover3)) (ix3 g p q)

/-- Window 4's block index at a point: the core number (the point's block number divided by eight) on the
    leading axis, zero on the two others. -/
theorem idx_facts4 : ∀ t : Fin cfg0.N, win0_4.index t (0 : Fin 3) = t.val / 8
    ∧ win0_4.index t (1 : Fin 3) = 0 ∧ win0_4.index t (2 : Fin 3) = 0 :=
  (by decide +kernel : ∀ t : Fin grid0.N, _)

/-- The whole result array 4: entry (g, p, q) is core g's one-hot partial sum at class p, feature q. -/
abbrev G4 (c : Dev nD) : S2x512x512.Idx → E := fun j => part (X2 m c) (T m c) (j 0) (j 1) (j 2)

/-- The accumulator after core g's last block (point 8 g + 7), at class p and feature q, is that partial sum. -/
theorem acc2_at (c : Dev nD) (t : Fin cfg0.N) (g : Fin 2) (ht : t.val = 8 * g.val + 7) (p q : Fin 512) :
    Acc.acc2 m c t.val t.isLt (ix2 p q) = part (X2 m c) (T m c) g p q := by
  obtain ⟨n, hn⟩ := t
  dsimp only at ht
  subst ht
  exact acc2_last m c g hn p q

/-- What a point that writes window 4 back writes: its block of the whole array. The point is a core's last
    (8 g + 7), the block is the accumulator re-laid with a leading unit axis, and the block sits at (g, 0, 0). -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  have hN : cfg0.N = 16 := N_0
  have hlt : t.val < 16 := lt_of_lt_of_eq t.isLt hN
  have hg : t.val / 8 < 2 := by omega
  obtain ⟨e0, e1, e2⟩ := idx_facts4 t
  show (cfg0.win 4).cut (grid0.coords t) ((dats m 0 c).after 4 t) = _
  rw [after0_4, Acc.outs_o4 m c t h7]
  funext y
  obtain ⟨y0, p, q, rfl⟩ : ∃ (y0 : Fin 1) (p q : Fin 512), y = ix3 y0 p q := ⟨y 0, y 1, y 2, eq_ix3 y⟩
  have hemb : ((cfg0.win 4).blk t).view.emb (ix3 y0 p q) = ix3 (⟨t.val / 8, hg⟩ : Fin 2) p q := by
    funext a; apply Fin.ext
    match a with
    | ⟨0, _⟩ => show win0_4.index t (0 : Fin 3) * 1 + 1 * y0.val = t.val / 8; have := y0.isLt; omega
    | ⟨1, _⟩ => show win0_4.index t (1 : Fin 3) * 512 + 1 * p.val = p.val; omega
    | ⟨2, _⟩ => show win0_4.index t (2 : Fin 3) * 512 + 1 * q.val = q.val; omega
  show k0_pay7 (Acc.acc2 m c t.val t.isLt) (ix3 y0 p q) = G4 m c (((cfg0.win 4).blk t).view.emb (ix3 y0 p q))
  exact ((Pay.pay7_apply (Acc.acc2 m c t.val t.isLt) y0 p q).trans
    (acc2_at m c t ⟨t.val / 8, hg⟩ (by show t.val = 8 * (t.val / 8) + 7; omega) p q)).trans
    (congrArg (G4 m c) hemb).symm

/-- Every entry of result array 4 lies in the block some point writes back: entry (g, p, q) in that of core
    g's last point. -/
theorem cover4 (i : S2x512x512.Idx) :
    ∃ t : Fin cfg0.N, (cfg0.win 4).flush t = true ∧ i ∈ ((cfg0.win 4).blk t).view.set := by
  have hN : cfg0.N = 16 := N_0
  have hi0 : (i 0).val < 2 := (i 0).isLt
  have hi1 : (i 1).val < 512 := (i 1).isLt
  have hi2 : (i 2).val < 512 := (i 2).isLt
  obtain ⟨t, ht⟩ : ∃ t : Fin cfg0.N, t.val = 8 * (i 0).val + 7 := ⟨⟨8 * (i 0).val + 7, by omega⟩, rfl⟩
  obtain ⟨e0, e1, e2⟩ := idx_facts4 t
  refine ⟨t, (flush0_4 t).mpr (by omega), ?_⟩
  show i ∈ ((View.whole main_v1_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

theorem final4 (c : Dev nD) (g : Fin 2) (p q : Fin 512) :
    (dats m 0 c).arrAt 4 cfg0.N (ix3 g p q) = part (X2 m c) (T m c) g p q := by
  exact congrFun ((dats m 0 c).arrAt_eq_of_cover 4 (G4 m c) (flushed4_eq m c) (cover4)) (ix3 g p q)

end Cert.KernelIdeal.Arr

end
-- ==== Proof.KernelRun.lean ====
/-
  The idealized kernel's run, read: every weakly fair execution terminates with the result at the kernel-side
  formula of the launch arguments, and the arguments unchanged.  The region's frame run gives the two result
  arrays (the cores' one-hot partial sums); the host operations after the region turn them into the loss.
-/
import proofs.«402360_j36618891166025_3_alg».proof.Proof.KernelTail
import proofs.«402360_j36618891166025_3_alg».proof.Proof.KernelArr

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Idealize.ShloMosaic.ValueIdx Cert.SegLoss Cert.KernelIdeal.Sum

variable (m : (ℓ : Loc nD τ sig) → Buf (Elt Ideal) ℓ) (ρ : Dev nD → PrngReg)

/-- The kernel-side value of the result on core c. -/
def kres (c : Dev nD) : Buf (Elt Ideal) ((c.tc : Thread nD τ).loc main_v52) :=
  fun _ => kval (part (X1 m c) (T m c)) (part (X2 m c) (T m c)) (fun p => cnt (T m c) p.val)
    (fun cc d => m ((c : Thread nD τ).loc main_arg2) (ix2 cc d))

theorem tail_kres (c : Dev nD) :
    Pipeline.afterTail₀ cfgs (dats m) 0 (V0 m) [hostOps1, hostOps1_1, hostOps1_2, hostOps1_3, hostOps1_4] c main_v52 = kres m c := by
  rw [Tail.tail_value]
  unfold kres
  simp only [Arr.final3, Arr.final4]

theorem krun : θ_run defs (onTc (τ := τ) (main (F := Ideal))) ⟨m, fun _ => 0, ρ⟩ (fun r => ∀ c : Dev nD,
      r.2.mem ((c.tc : Thread nD τ).loc main_v52) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v52 (Pipeline.mem_restRefs_of main_v52 (by decide) (by decide))).trans (tail_kres m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefValue.lean ====
/-
  The reference's result as a function of its arguments: segment sums and counts by scatter-add, the class means
  gathered back per sample, the smooth-L1 term of every sample entry summed and divided by the word of 2^24, once
  for each modality.
-/
import proofs.«402360_j36618891166025_3_alg».proof.Defs
import proofs.«402360_j36618891166025_3_alg».proof.Proof.Gen.ReferenceIdeal.Run
import proofs.«402360_j36618891166025_3_alg».proof.Proof.Gen.ReferenceIdeal.Read
import proofs.«402360_j36618891166025_3_alg».proof.Proof.LibRowScatter
import proofs.«402360_j36618891166025_3_alg».proof.Proof.Spec

set_option maxRecDepth 16384

noncomputable section

open Idealize.ShloMosaic Idealize.ShloMosaic.TcCoe Idealize.SL.Sem

namespace Cert.RefSide

open Cert.ReferenceIdeal Idealize.ShloMosaic.ValueIdx Cert.SegLoss

open Idealize.ShloMosaic.RowScatter Cert.ReferenceIdeal.Read

/-- The printed dimension numbers of the scalar scatter are the general lemma's. -/
theorem scat1_eq : scatter_S395_S32768x1_S32768_n_0_0_1
    = scatDims1 395 32768 Facts₀.scatter_S395_S32768x1_S32768_n_0_0_1_wf := rfl

/-- The printed dimension numbers of the row scatter are the general lemma's. -/
theorem scat2_eq : scatter_S395x512_S32768x1_S32768x512_1_0_0_1
    = scatDims2 395 512 32768 Facts₀.scatter_S395x512_S32768x1_S32768x512_1_0_0_1_wf := rfl

/-- The printed dimension numbers of the row gather are the general lemma's. -/
theorem gath_eq : gather_S395x512_S32768x1_S32768x512_1_0_n_n_0_1_1512
    = gathDims2 395 512 32768 Facts₀.gather_S395x512_S32768x1_S32768x512_1_0_n_n_0_1_1512_wf := rfl

/-- A scalar scatter-add of ones into zeros, at class c, is the count of c. -/
theorem count_read (x : FVec Ideal S395 .f32) (idx : IVec S32768x1 32) (upd : FVec Ideal S32768 .f32)
    (t : Fin 32768 → BitVec 32) (hx : ∀ p : Fin 395, x (ix1 p) = zero) (hidx : ∀ i : Fin 32768, idx (sidx i) = t i)
    (hupd : ∀ i : Fin 32768, upd (ix1 i) = one) (c : Fin 395) :
    Host.scatterAdd scatter_S395_S32768x1_S32768_n_0_0_1 x idx upd (ix1 c) = cnt t c.val := by
  rw [scat1_eq]
  refine (scatterAdd1_apply _ x idx upd c).trans ?_
  rw [hx c]
  unfold cnt
  exact congrArg (fun s : E => zero + s) (Finset.sum_congr rfl (fun i _ => by rw [hidx i, hupd i]))

/-- A row scatter-add of the rows of u into zeros, at (c, d), is the segment sum of c at d. -/
theorem seg_read (x : FVec Ideal S395x512 .f32) (idx : IVec S32768x1 32) (upd : FVec Ideal S32768x512 .f32)
    (t : Fin 32768 → BitVec 32) (hx : ∀ (p : Fin 395) (q : Fin 512), x (ix2 p q) = zero)
    (hidx : ∀ i : Fin 32768, idx (sidx i) = t i) (c : Fin 395) (d : Fin 512) :
    Host.scatterAdd scatter_S395x512_S32768x1_S32768x512_1_0_0_1 x idx upd (ix2 c d)
      = seg (fun i q => upd (ix2 i q)) t c.val d := by
  rw [scat2_eq]
  refine (scatterAdd2_apply _ x idx upd c d).trans ?_
  rw [hx c d]
  unfold seg
  exact congrArg (fun s : E => zero + s) (Finset.sum_congr rfl (fun i _ => by rw [hidx i]))

/-- A row gather at the wrapped label reads the table's row `grow` of the label. -/
theorem gather_read {α : Type} (x : S395x512.Idx → α) (idx : IVec S32768x1 32) (t : Fin 32768 → BitVec 32)
    (hidx : ∀ i : Fin 32768, idx (sidx i) = Scalar.select (IntOp.cmpi .slt (t i) 0#32) (t i + 395#32) (t i))
    (i : Fin 32768) (d : Fin 512) :
    Host.gather gather_S395x512_S32768x1_S32768x512_1_0_n_n_0_1_1512 x idx (ix2 i d) = x (ix2 (grow (t i)) d) := by
  rw [gath_eq]
  refine (gather2_apply (by decide) _ x idx i d).trans ?_
  refine congrArg (fun r : Fin 395 => x (ix2 r d)) (Fin.ext ?_)
  show min (idx (sidx i)).toInt.toNat (395 - 1) = min (Scalar.select (IntOp.cmpi .slt (t i) 0#32) (t i + 395#32) (t i)).toInt.toNat 394
  rw [hidx i]

/-! ## Indices: the broadcasts' index maps at the coordinates -/

theorem idx2_sidx (i : Fin 32768) : idx_main_v2 (sidx i) = ix1 i :=
  funext fun a => Fin.ext (by match a with | ⟨0, _⟩ => rfl)
theorem idx7_sidx (i : Fin 32768) : idx_main_v7 (sidx i) = ix1 i :=
  funext fun a => Fin.ext (by match a with | ⟨0, _⟩ => rfl)
theorem idx10_sidx (i : Fin 32768) : idx_main_v10 (sidx i) = ix1 i :=
  funext fun a => Fin.ext (by match a with | ⟨0, _⟩ => rfl)
theorem idx20_sidx (i : Fin 32768) : idx_main_v20 (sidx i) = ix1 i :=
  funext fun a => Fin.ext (by match a with | ⟨0, _⟩ => rfl)
theorem idx30_sidx (i : Fin 32768) : idx_main_v30 (sidx i) = ix1 i :=
  funext fun a => Fin.ext (by match a with | ⟨0, _⟩ => rfl)
theorem idx37_sidx (i : Fin 32768) : idx_main_v37 (sidx i) = ix1 i :=
  funext fun a => Fin.ext (by match a with | ⟨0, _⟩ => rfl)
theorem idx13_ix2 (c : Fin 395) (d : Fin 512) : idx_main_v12 (idx_main_v13 (ix2 c d)) = ix1 c :=
  funext fun a => Fin.ext (by match a with | ⟨0, _⟩ => rfl)
theorem idx23_ix2 (c : Fin 395) (d : Fin 512) : idx_main_v22 (idx_main_v23 (ix2 c d)) = ix1 c :=
  funext fun a => Fin.ext (by match a with | ⟨0, _⟩ => rfl)

/-! ## The labels as the scatters and gathers find them -/

section Labels
variable (x3 : (⟨S32768, .i32⟩ : BufTy).Contents (Elt Ideal))

theorem lab2 (i : Fin 32768) : val_main_v2 (F := Ideal) x3 (sidx i) = x3 (ix1 i) :=
  (val_main_v2_apply x3 (sidx i)).trans (congrArg x3 (idx2_sidx i))
theorem lab7 (i : Fin 32768) : val_main_v7 (F := Ideal) x3 (sidx i) = x3 (ix1 i) :=
  (val_main_v7_apply x3 (sidx i)).trans (congrArg x3 (idx7_sidx i))
theorem lab10 (i : Fin 32768) : val_main_v10 (F := Ideal) x3 (sidx i) = x3 (ix1 i) :=
  (val_main_v10_apply x3 (sidx i)).trans (congrArg x3 (idx10_sidx i))

/-- The wrapped label: a negative word moved up by 395. -/
theorem wrap19 (i : Fin 32768) : val_main_v19 (F := Ideal) x3 (ix1 i)
    = Scalar.select (IntOp.cmpi .slt (x3 (ix1 i)) 0#32) (x3 (ix1 i) + 395#32) (x3 (ix1 i)) := by
  rw [val_main_v19_apply, val_main_v16_apply, val_main_v18_apply, val_main_v15_apply, val_main_c_apply,
    val_main_v17_apply, val_main_c_4_apply]
  rfl
theorem wrap29 (i : Fin 32768) : val_main_v29 (F := Ideal) x3 (ix1 i)
    = Scalar.select (IntOp.cmpi .slt (x3 (ix1 i)) 0#32) (x3 (ix1 i) + 395#32) (x3 (ix1 i)) := by
  rw [val_main_v29_apply, val_main_v26_apply, val_main_v28_apply, val_main_v25_apply, val_main_c_5_apply,
    val_main_v27_apply, val_main_c_6_apply]
  rfl
theorem wrap36 (i : Fin 32768) : val_main_v36 (F := Ideal) x3 (ix1 i)
    = Scalar.select (IntOp.cmpi .slt (x3 (ix1 i)) 0#32) (x3 (ix1 i) + 395#32) (x3 (ix1 i)) := by
  rw [val_main_v36_apply, val_main_v33_apply, val_main_v35_apply, val_main_v32_apply, val_main_c_7_apply,
    val_main_v34_apply, val_main_c_8_apply]
  rfl

theorem wrap20 (i : Fin 32768) : val_main_v20 (F := Ideal) x3 (sidx i)
    = Scalar.select (IntOp.cmpi .slt (x3 (ix1 i)) 0#32) (x3 (ix1 i) + 395#32) (x3 (ix1 i)) :=
  ((val_main_v20_apply x3 (sidx i)).trans (congrArg (val_main_v19 (F := Ideal) x3) (idx20_sidx i))).trans (wrap19 x3 i)
theorem wrap30 (i : Fin 32768) : val_main_v30 (F := Ideal) x3 (sidx i)
    = Scalar.select (IntOp.cmpi .slt (x3 (ix1 i)) 0#32) (x3 (ix1 i) + 395#32) (x3 (ix1 i)) :=
  ((val_main_v30_apply x3 (sidx i)).trans (congrArg (val_main_v29 (F := Ideal) x3) (idx30_sidx i))).trans (wrap29 x3 i)
theorem wrap37 (i : Fin 32768) : val_main_v37 (F := Ideal) x3 (sidx i)
    = Scalar.select (IntOp.cmpi .slt (x3 (ix1 i)) 0#32) (x3 (ix1 i) + 395#32) (x3 (ix1 i)) :=
  ((val_main_v37_apply x3 (sidx i)).trans (congrArg (val_main_v36 (F := Ideal) x3) (idx37_sidx i))).trans (wrap36 x3 i)

end Labels

/-! ## The literals: zeros and ones -/

theorem v1_zero (p : Fin 395) : val_main_v1 (F := Ideal) (ix1 p) = zero := by
  rw [val_main_v1_apply, val_main_cst_0_apply]; rfl
theorem v0_one (i : Fin 32768) : val_main_v0 (F := Ideal) (ix1 i) = one := by
  rw [val_main_v0_apply, val_main_cst_apply]; rfl
theorem v4_one (p : Fin 395) : val_main_v4 (F := Ideal) (ix1 p) = one := by
  rw [val_main_v4_apply, val_main_cst_1_apply]; rfl
theorem v6_zero (p : Fin 395) (q : Fin 512) : val_main_v6 (F := Ideal) (ix2 p q) = zero := by
  rw [val_main_v6_apply, val_main_cst_2_apply]; rfl
theorem v9_zero (p : Fin 395) (q : Fin 512) : val_main_v9 (F := Ideal) (ix2 p q) = zero := by
  rw [val_main_v9_apply, val_main_cst_3_apply]; rfl

/-! ## Counts, segment sums and class means at a class; the gathers at a sample -/

section Stages
variable (x0 x1 : (⟨S32768x512, .f32⟩ : BufTy).Contents (Elt Ideal)) (x2 : (⟨S395x512, .f32⟩ : BufTy).Contents (Elt Ideal))
  (x3 : (⟨S32768, .i32⟩ : BufTy).Contents (Elt Ideal))

/-- The count of class c. -/
theorem v3_read (c : Fin 395) : val_main_v3 (F := Ideal) x3 (ix1 c) = cnt (fun i => x3 (ix1 i)) c.val := by
  unfold val_main_v3
  exact count_read _ _ _ (fun i => x3 (ix1 i)) v1_zero (lab2 x3) v0_one c

/-- The count of class c clamped below by one. -/
theorem v5_read (c : Fin 395) :
    val_main_v5 (F := Ideal) x3 (ix1 c) = FloatOps.maximumf (cnt (fun i => x3 (ix1 i)) c.val) one := by
  rw [val_main_v5_apply, v3_read, v4_one]

/-- The segment sum of the first modality at (c, d). -/
theorem v8_read (c : Fin 395) (d : Fin 512) :
    val_main_v8 (F := Ideal) x0 x3 (ix2 c d) = seg (fun i q => x0 (ix2 i q)) (fun i => x3 (ix1 i)) c.val d := by
  unfold val_main_v8
  exact seg_read _ _ x0 (fun i => x3 (ix1 i)) v6_zero (lab7 x3) c d

/-- The segment sum of the second modality at (c, d). -/
theorem v11_read (c : Fin 395) (d : Fin 512) :
    val_main_v11 (F := Ideal) x1 x3 (ix2 c d) = seg (fun i q => x1 (ix2 i q)) (fun i => x3 (ix1 i)) c.val d := by
  unfold val_main_v11
  exact seg_read _ _ x1 (fun i => x3 (ix1 i)) v9_zero (lab10 x3) c d

/-- The clamped count spread along the features. -/
theorem v13_read (c : Fin 395) (d : Fin 512) :
    val_main_v13 (F := Ideal) x3 (ix2 c d) = FloatOps.maximumf (cnt (fun i => x3 (ix1 i)) c.val) one :=
  ((val_main_v13_apply x3 (ix2 c d)).trans ((val_main_v12_apply x3 _).trans
    (congrArg (val_main_v5 (F := Ideal) x3) (idx13_ix2 c d)))).trans (v5_read x3 c)
theorem v23_read (c : Fin 395) (d : Fin 512) :
    val_main_v23 (F := Ideal) x3 (ix2 c d) = FloatOps.maximumf (cnt (fun i => x3 (ix1 i)) c.val) one :=
  ((val_main_v23_apply x3 (ix2 c d)).trans ((val_main_v22_apply x3 _).trans
    (congrArg (val_main_v5 (F := Ideal) x3) (idx23_ix2 c d)))).trans (v5_read x3 c)

/-- The class mean of the first modality at (c, d). -/
theorem v14_read (c : Fin 395) (d : Fin 512) :
    val_main_v14 (F := Ideal) x0 x3 (ix2 c d)
      = FloatOps.hostDivf (seg (fun i q => x0 (ix2 i q)) (fun i => x3 (ix1 i)) c.val d)
          (FloatOps.maximumf (cnt (fun i => x3 (ix1 i)) c.val) one) := by
  rw [val_main_v14_apply, v8_read, v13_read]
/-- The class mean of the second modality at (c, d). -/
theorem v24_read (c : Fin 395) (d : Fin 512) :
    val_main_v24 (F := Ideal) x1 x3 (ix2 c d)
      = FloatOps.hostDivf (seg (fun i q => x1 (ix2 i q)) (fun i => x3 (ix1 i)) c.val d)
          (FloatOps.maximumf (cnt (fun i => x3 (ix1 i)) c.val) one) := by
  rw [val_main_v24_apply, v11_read, v23_read]

/-- Sample i gathers the class mean of its row `grow`. -/
theorem v21_read (i : Fin 32768) (d : Fin 512) :
    val_main_v21 (F := Ideal) x0 x3 (ix2 i d)
      = FloatOps.hostDivf (seg (fun i q => x0 (ix2 i q)) (fun i => x3 (ix1 i)) (grow (x3 (ix1 i))).val d)
          (FloatOps.maximumf (cnt (fun i => x3 (ix1 i)) (grow (x3 (ix1 i))).val) one) := by
  unfold val_main_v21
  exact (gather_read _ _ (fun i => x3 (ix1 i)) (wrap20 x3) i d).trans (v14_read x0 x3 _ d)
theorem v31_read (i : Fin 32768) (d : Fin 512) :
    val_main_v31 (F := Ideal) x1 x3 (ix2 i d)
      = FloatOps.hostDivf (seg (fun i q => x1 (ix2 i q)) (fun i => x3 (ix1 i)) (grow (x3 (ix1 i))).val d)
          (FloatOps.maximumf (cnt (fun i => x3 (ix1 i)) (grow (x3 (ix1 i))).val) one) := by
  unfold val_main_v31
  exact (gather_read _ _ (fun i => x3 (ix1 i)) (wrap30 x3) i d).trans (v24_read x1 x3 _ d)
/-- Sample i gathers the center row `grow`. -/
theorem v38_read (i : Fin 32768) (d : Fin 512) :
    val_main_v38 (F := Ideal) x2 x3 (ix2 i d) = x2 (ix2 (grow (x3 (ix1 i))) d) := by
  unfold val_main_v38
  exact gather_read x2 _ (fun i => x3 (ix1 i)) (wrap37 x3) i d

end Stages

/-! ## The loss term of a sample entry, the two totals, the result -/

theorem v41_one (j : S32768x512.Idx) : val_main_v41 (F := Ideal) j = one := by
  rw [val_main_v41_apply, val_main_cst_9_apply]; rfl
theorem v43_half (j : S32768x512.Idx) : val_main_v43 (F := Ideal) j = half := by
  rw [val_main_v43_apply, val_main_cst_10_apply]; rfl
theorem v46_half (j : S32768x512.Idx) : val_main_v46 (F := Ideal) j = half := by
  rw [val_main_v46_apply, val_main_cst_11_apply]; rfl
theorem v53_one (j : S32768x512.Idx) : val_main_v53 (F := Ideal) j = one := by
  rw [val_main_v53_apply, val_main_cst_14_apply]; rfl
theorem v55_half (j : S32768x512.Idx) : val_main_v55 (F := Ideal) j = half := by
  rw [val_main_v55_apply, val_main_cst_15_apply]; rfl
theorem v58_half (j : S32768x512.Idx) : val_main_v58 (F := Ideal) j = half := by
  rw [val_main_v58_apply, val_main_cst_16_apply]; rfl

section Terms
variable (x0 x1 : (⟨S32768x512, .f32⟩ : BufTy).Contents (Elt Ideal)) (x2 : (⟨S395x512, .f32⟩ : BufTy).Contents (Elt Ideal))
  (x3 : (⟨S32768, .i32⟩ : BufTy).Contents (Elt Ideal))

/-- The distance of sample i's gathered class mean from its gathered center entry, first modality. -/
theorem v40_read (i : Fin 32768) (d : Fin 512) :
    val_main_v40 (F := Ideal) x0 x2 x3 (ix2 i d)
      = FloatOps.hostAbsf (FloatOps.subf
          (FloatOps.hostDivf (seg (fun i q => x0 (ix2 i q)) (fun i => x3 (ix1 i)) (grow (x3 (ix1 i))).val d)
            (FloatOps.maximumf (cnt (fun i => x3 (ix1 i)) (grow (x3 (ix1 i))).val) one))
          (x2 (ix2 (grow (x3 (ix1 i))) d))) := by
  rw [val_main_v40_apply, val_main_v39_apply, v21_read, v38_read]
/-- The same for the second modality. -/
theorem v52_read (i : Fin 32768) (d : Fin 512) :
    val_main_v52 (F := Ideal) x1 x2 x3 (ix2 i d)
      = FloatOps.hostAbsf (FloatOps.subf
          (FloatOps.hostDivf (seg (fun i q => x1 (ix2 i q)) (fun i => x3 (ix1 i)) (grow (x3 (ix1 i))).val d)
            (FloatOps.maximumf (cnt (fun i => x3 (ix1 i)) (grow (x3 (ix1 i))).val) one))
          (x2 (ix2 (grow (x3 (ix1 i))) d))) := by
  rw [val_main_v52_apply, val_main_v51_apply, v31_read, v38_read]

/-- The smooth-L1 term of sample entry (i, d), first modality. -/
theorem v48_read (i : Fin 32768) (d : Fin 512) :
    val_main_v48 (F := Ideal) x0 x2 x3 (ix2 i d)
      = term (seg (fun i q => x0 (ix2 i q)) (fun i => x3 (ix1 i)) (grow (x3 (ix1 i))).val d)
          (cnt (fun i => x3 (ix1 i)) (grow (x3 (ix1 i))).val) (x2 (ix2 (grow (x3 (ix1 i))) d)) := by
  rw [val_main_v48_apply, val_main_v42_apply, val_main_v45_apply, val_main_v44_apply, val_main_v47_apply,
    v41_one, v43_half, v46_half, v40_read]
  rfl
/-- The smooth-L1 term of sample entry (i, d), second modality. -/
theorem v60_read (i : Fin 32768) (d : Fin 512) :
    val_main_v60 (F := Ideal) x1 x2 x3 (ix2 i d)
      = term (seg (fun i q => x1 (ix2 i q)) (fun i => x3 (ix1 i)) (grow (x3 (ix1 i))).val d)
          (cnt (fun i => x3 (ix1 i)) (grow (x3 (ix1 i))).val) (x2 (ix2 (grow (x3 (ix1 i))) d)) := by
  rw [val_main_v60_apply, val_main_v54_apply, val_main_v57_apply, val_main_v56_apply, val_main_v59_apply,
    v53_one, v55_half, v58_half, v52_read]
  rfl

/-- The total of the first modality: the sum over both axes by coordinates, from the zero word. -/
theorem v49_read (k : S_.Idx) :
    val_main_v49 (F := Ideal) x0 x2 x3 k
      = zero + ∑ i : Fin 32768, ∑ d : Fin 512,
          term (seg (fun i q => x0 (ix2 i q)) (fun i => x3 (ix1 i)) (grow (x3 (ix1 i))).val d)
            (cnt (fun i => x3 (ix1 i)) (grow (x3 (ix1 i))).val) (x2 (ix2 (grow (x3 (ix1 i))) d)) := by
  refine (val_main_v49_apply x0 x2 x3 k).trans ?_
  rw [val_main_cst_12_apply]
  refine congrArg (fun s : E => zero + s) ?_
  refine (sum_idx2 _).trans ?_
  exact Finset.sum_congr rfl (fun i _ => Finset.sum_congr rfl (fun d _ => v48_read x0 x2 x3 i d))
/-- The total of the second modality. -/
theorem v61_read (k : S_.Idx) :
    val_main_v61 (F := Ideal) x1 x2 x3 k
      = zero + ∑ i : Fin 32768, ∑ d : Fin 512,
          term (seg (fun i q => x1 (ix2 i q)) (fun i => x3 (ix1 i)) (grow (x3 (ix1 i))).val d)
            (cnt (fun i => x3 (ix1 i)) (grow (x3 (ix1 i))).val) (x2 (ix2 (grow (x3 (ix1 i))) d)) := by
  refine (val_main_v61_apply x1 x2 x3 k).trans ?_
  rw [val_main_cst_17_apply]
  refine congrArg (fun s : E => zero + s) ?_
  refine (sum_idx2 _).trans ?_
  exact Finset.sum_congr rfl (fun i _ => Finset.sum_congr rfl (fun d _ => v60_read x1 x2 x3 i d))

end Terms

theorem ref_value (x0 x1 : (⟨S32768x512, .f32⟩ : BufTy).Contents (Elt Ideal)) (x2 : (⟨S395x512, .f32⟩ : BufTy).Contents (Elt Ideal))
    (x3 : (⟨S32768, .i32⟩ : BufTy).Contents (Elt Ideal)) :
    Cert.ReferenceIdeal.Read.val_main_v63 (F := Ideal) x0 x1 x2 x3
      = fun _ => rval (fun cc d => seg (fun i q => x0 (ix2 i q)) (fun i => x3 (ix1 i)) cc.val d)
          (fun cc d => seg (fun i q => x1 (ix2 i q)) (fun i => x3 (ix1 i)) cc.val d)
          (fun cc => cnt (fun i => x3 (ix1 i)) cc.val)
          (fun cc d => x2 (ix2 cc d))
          (fun i => grow (x3 (ix1 i))) := by
  funext k
  rw [val_main_v63_apply, val_main_v50_apply, val_main_v62_apply, v49_read, v61_read, val_main_cst_13_apply,
    val_main_cst_18_apply]
  rfl

end Cert.RefSide

end
-- ==== Proof.PreRange.lean ====
/-
  The precondition, decoded at a label: every label word, read signed, lies in `[0, 395)` — as an unsigned
  number it is below 395.
-/
import proofs.«402360_j36618891166025_3_alg».proof.Defs
import proofs.«402360_j36618891166025_3_alg».proof.Proof.Gen.KernelIdeal
import proofs.«402360_j36618891166025_3_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

open Idealize.ShloMosaic Idealize.ShloMosaic.TcCoe Idealize.SL.Sem

namespace Cert.PreRange

open Idealize.ShloMosaic.ValueIdx

/-- A 32-bit word that is at least 0 and below `n` (with `n` below 2³¹), both read signed, is below `n` unsigned:
    nonnegative signed means the top bit is clear, so the signed and unsigned readings agree. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, StableHlo.Predicate.toInt_ofNat_small n hn,
    StableHlo.Predicate.toInt_eq_toNat_of_lt (a := w) (by omega)] at h1
  omega

/-- A word in `[0, 395)` signed is below 395 unsigned. -/
theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) (i : Fin 32768) :
    (m ((c.tc : Thread Cert.KernelIdeal.nD Cert.KernelIdeal.τ).loc Cert.KernelIdeal.main_arg3) (ix1 i)).toNat < 395 := by
  haveI : Subsingleton Cert.Pre_finite_inputs.S_.Idx := ⟨fun a b => funext fun d => d.elim0⟩
  have e := congrFun (h c) ValueIdx.ix0
  unfold Cert.Pre_finite_inputs.fn Cert.Pre_finite_inputs.fn_part1 at e
  simp only [andi] at e
  obtain ⟨e1, hlt⟩ := IntOp.andi_eq_one.1 e
  obtain ⟨-, hge⟩ := IntOp.andi_eq_one.1 e1
  have hge_i := Host.reduce_andi_all _ _ _ _ _ hge (ix1 i)
  have hlt_i := Host.reduce_andi_all _ _ _ _ _ hlt (ix1 i)
  simp only [cmpi, broadcastInDim, constantI] at hge_i hlt_i
  exact toNat_lt_of_signed _ 395 (by decide) hge_i hlt_i

end Cert.PreRange

end
-- ==== Proof.BridgeParts.lean ====
/-
  Pieces of the comparison of the two formulas: the shared literals as extended reals, the reference's gathered
  row for a label in range, and the two cores' one-hot partial sums added into the segment sum over all rows.
-/
import proofs.«402360_j36618891166025_3_alg».proof.Proof.Spec
import Mathlib.Algebra.BigOperators.Fin
import Mathlib.Algebra.BigOperators.Group.Finset.Defs
import Mathlib.Data.Fintype.BigOperators
import Mathlib.Data.EReal.Operations
import Mathlib.Logic.Equiv.Fin.Basic

noncomputable section

open scoped BigOperators

namespace Cert.SegLoss

open Idealize.ShloMosaic

/-- The zero word denotes 0, the word of 1.0 denotes 1. -/
theorem zero_eq : zero = 0 := by
  unfold zero
  simp [Ideal.ofBits, Ideal.ieee]

theorem one_eq : one = 1 := by
  unfold one
  simp [Ideal.ofBits, Ideal.ieee, -EReal.coe_mul]; norm_num

/-- The kernel's final factor is 1 / 2^24 and the reference's final divisor is 2^24. -/
theorem wR_eq : wR = ((16777216 : ℝ) : EReal) := by
  unfold wR
  simp [Ideal.ofBits, Ideal.ieee, -EReal.coe_mul]; norm_num

theorem wK_eq : wK = ((1 / 16777216 : ℝ) : EReal) := by
  unfold wK
  simp [Ideal.ofBits, Ideal.ieee, -EReal.coe_mul]; norm_num

/-- A word below 395 unsigned has its top bit clear: read signed it is its unsigned value. -/
theorem toInt_of_small (w : BitVec 32) (h : w.toNat < 395) : w.toInt = (w.toNat : ℤ) := by
  unfold BitVec.toInt
  split <;> omega

/-- A label word below 395 (unsigned) is not negative, so it is not wrapped, and the clamp leaves it. -/
theorem grow_eq (w : BitVec 32) (h : w.toNat < 395) : grow w = ⟨w.toNat, h⟩ := by
  have hi := toInt_of_small w h
  have hs : IntOp.cmpi .slt w 0#32 = 0#1 := by
    unfold IntOp.cmpi
    have : w.slt 0#32 = false := by
      simp only [BitVec.slt, hi, show (0#32 : BitVec 32).toInt = 0 from by decide, decide_eq_false_iff_not]
      omega
    rw [this]; rfl
  apply Fin.ext
  show min (Scalar.select (IntOp.cmpi .slt w 0#32) (w + 395#32) w).toInt.toNat 394 = w.toNat
  rw [hs]
  unfold Scalar.select
  rw [if_neg (by decide), hi]
  omega

/-- For such a word, reading it signed gives the class number p exactly when its unsigned value is p. -/
theorem toInt_eq_iff (w : BitVec 32) (h : w.toNat < 395) (p : ℕ) : w.toInt = (p : ℤ) ↔ w.toNat = p := by
  rw [toInt_of_small w h]
  omega

/-- Rows `(8 g + s) * 2048 + k` over g < 2, s < 8, k < 2048 are all 32768 rows, each once: the block, the
    sub-block and the offset of a row are its quotient by 16384, its quotient by 2048 reduced modulo 8, and its
    remainder modulo 2048. -/
def rowEquiv : Fin 2 × Fin 8 × Fin 2048 ≃ Fin 32768 where
  toFun a := rowOf a.1 a.2.1 a.2.2
  invFun i := (⟨i.val / 16384, by have := i.isLt; omega⟩, ⟨i.val / 2048 % 8, by omega⟩, ⟨i.val % 2048, by omega⟩)
  left_inv := by
    rintro ⟨g, s, k⟩
    have hg := g.isLt; have hs := s.isLt; have hk := k.isLt
    refine Prod.ext (Fin.ext ?_) (Prod.ext (Fin.ext ?_) (Fin.ext ?_))
    · show ((g.val * 8 + s.val) * 2048 + k.val) / 16384 = g.val
      omega
    · show ((g.val * 8 + s.val) * 2048 + k.val) / 2048 % 8 = s.val
      omega
    · show ((g.val * 8 + s.val) * 2048 + k.val) % 2048 = k.val
      omega
  right_inv := by
    intro i
    have hi := i.isLt
    apply Fin.ext
    show (i.val / 16384 * 8 + i.val / 2048 % 8) * 2048 + i.val % 2048 = i.val
    omega

/-- The two cores' partial sums add up to the sum over all 32768 rows: rows `(8 g + s) * 2048 + k` over
    g < 2, s < 8, k < 2048 are all the rows, each once. -/
theorem parts_add (x : Fin 32768 → Fin 512 → E) (t : Fin 32768 → BitVec 32) (p q : Fin 512) :
    part x t 0 p q + part x t 1 p q = ∑ i : Fin 32768, (if (t i).toInt = (p.val : ℤ) then x i q else 0) := by
  let F : Fin 32768 → E := fun i => if (t i).toInt = (p.val : ℤ) then x i q else 0
  have hF : ∀ g, part x t g p q = ∑ s : Fin 8, ∑ k : Fin 2048, F (rowOf g s k) := fun g => rfl
  rw [hF 0, hF 1]
  calc (∑ s : Fin 8, ∑ k : Fin 2048, F (rowOf 0 s k)) + ∑ s : Fin 8, ∑ k : Fin 2048, F (rowOf 1 s k)
      = ∑ g : Fin 2, ∑ s : Fin 8, ∑ k : Fin 2048, F (rowOf g s k) := (Fin.sum_univ_two (fun g : Fin 2 => ∑ s : Fin 8, ∑ k : Fin 2048, F (rowOf g s k))).symm
    _ = ∑ a : Fin 2 × Fin 8 × Fin 2048, F (rowEquiv a) := by
        rw [Fintype.sum_prod_type]
        refine Fintype.sum_congr _ _ fun g => ?_
        rw [Fintype.sum_prod_type]
        rfl
    _ = ∑ i : Fin 32768, F i := Equiv.sum_comp rowEquiv F

end Cert.SegLoss

end
-- ==== Proof.Bridge.lean ====
/-
  The two formulas agree when every label lies in `[0, 395)`.

  Write c(i) for the class of row i and N c for the number of rows of class c.  The kernel's count of class c is
  N c, the two cores' partial sums add up to the segment sum, and the reference gathers row c(i) for sample i;
  so with a c d, b c d the two modalities' loss terms of class entry (c, d), the kernel computes
  `(∑ c d, (a c d + b c d) · N c) · 2^-24` and the reference `(∑ i d, a (c i) d) / 2^24 + (∑ i d, b (c i) d) / 2^24`.
  A sum over the samples of a function of the class is the sum over the classes weighted by N c (each class's
  fibre contributes N c equal terms); a natural number distributes over a sum of extended reals, and so does a
  positive real; dividing by 2^24 is multiplying by 2^-24.  No finiteness is needed.
-/
import proofs.«402360_j36618891166025_3_alg».proof.Proof.Spec
import proofs.«402360_j36618891166025_3_alg».proof.Proof.BridgeParts
import Mathlib.Algebra.BigOperators.Fin
import Mathlib.Data.EReal.Operations

noncomputable section

open scoped BigOperators

namespace Cert.SegLoss

open Idealize.ShloMosaic

variable (x1 x2 : Fin 32768 → Fin 512 → E) (cen : Fin 395 → Fin 512 → E) (t : Fin 32768 → BitVec 32)

/-- The class of row i, for labels in range. -/
def cls (ht : ∀ i, (t i).toNat < 395) (i : Fin 32768) : Fin 395 := ⟨(t i).toNat, ht i⟩

/-- The number of rows of class c, as an extended real. -/
def num (ht : ∀ i, (t i).toNat < 395) (c : Fin 395) : EReal :=
  ((Finset.univ.filter (fun i => cls t ht i = c)).card : EReal)

/-- "the label word reads c" is "the row's class is c". -/
theorem reads_iff (ht : ∀ i, (t i).toNat < 395) (c : Fin 395) (i : Fin 32768) :
    (t i).toInt = ((c.val : ℕ) : ℤ) ↔ cls t ht i = c := by
  rw [toInt_eq_iff (t i) (ht i) c.val]
  exact ⟨fun e => Fin.ext e, fun e => congrArg Fin.val e⟩

/-- The count of class c is the number of its rows. -/
theorem cnt_eq (ht : ∀ i, (t i).toNat < 395) (c : Fin 395) : cnt t c.val = num t ht c := by
  unfold cnt num
  rw [zero_eq, zero_add, one_eq]
  have e : ∀ i : Fin 32768, (if (t i).toInt = ((c.val : ℕ) : ℤ) then (1 : E) else 0) = if cls t ht i = c then (1 : E) else 0 := by
    intro i
    by_cases hc : cls t ht i = c
    · rw [if_pos ((reads_iff t ht c i).mpr hc), if_pos hc]
    · rw [if_neg (fun e => hc ((reads_iff t ht c i).mp e)), if_neg hc]
  rw [Finset.sum_congr rfl (fun i _ => e i), ← Finset.sum_filter, Finset.sum_const, EReal.nsmul_eq_mul, mul_one]

/-- The two cores' partial sums add up to the segment sum. -/
theorem seg_eq (x : Fin 32768 → Fin 512 → E) (c : Fin 395) (d : Fin 512) :
    FloatOps.addf (part x t 0 (Fin.castLE (by decide) c) d) (part x t 1 (Fin.castLE (by decide) c) d) = seg x t c.val d := by
  show part x t 0 (Fin.castLE (by decide) c) d + part x t 1 (Fin.castLE (by decide) c) d = _
  rw [parts_add]
  unfold seg
  rw [zero_eq, zero_add]
  rfl

/-- A sum over the samples of a function of the class is the sum over the classes weighted by their sizes. -/
theorem sum_cls (ht : ∀ i, (t i).toNat < 395) (f : Fin 395 → EReal) :
    ∑ i : Fin 32768, f (cls t ht i) = ∑ c : Fin 395, f c * num t ht c := by
  rw [← Finset.sum_fiberwise Finset.univ (cls t ht) (fun i => f (cls t ht i))]
  refine Finset.sum_congr rfl fun c _ => ?_
  rw [Finset.sum_congr rfl (fun i hi => by rw [(Finset.mem_filter.mp hi).2] : ∀ i ∈ Finset.univ.filter (fun i => cls t ht i = c), f (cls t ht i) = f c)]
  rw [Finset.sum_const, EReal.nsmul_eq_mul, mul_comm]
  rfl

/-- The same for a function of the class and a feature, summed over both. -/
theorem sum_cls2 (ht : ∀ i, (t i).toNat < 395) (f : Fin 395 → Fin 512 → EReal) :
    ∑ i : Fin 32768, ∑ d : Fin 512, f (cls t ht i) d = ∑ c : Fin 395, ∑ d : Fin 512, f c d * num t ht c := by
  rw [Finset.sum_comm]
  rw [Finset.sum_congr rfl (fun d _ => sum_cls t ht (fun c => f c d))]
  rw [Finset.sum_comm]

/-- A natural number distributes over a sum of two extended reals. -/
theorem add_mul_num (ht : ∀ i, (t i).toNat < 395) (c : Fin 395) (a b : EReal) :
    (a + b) * num t ht c = a * num t ht c + b * num t ht c := by
  unfold num
  rw [mul_comm, mul_comm a, mul_comm b, ← EReal.nsmul_eq_mul, ← EReal.nsmul_eq_mul, ← EReal.nsmul_eq_mul, nsmul_add]

theorem bridge (ht : ∀ i, (t i).toNat < 395) :
    kval (part x1 t) (part x2 t) (fun p => cnt t p.val) cen
      = rval (fun c d => seg x1 t c.val d) (fun c d => seg x2 t c.val d) (fun c => cnt t c.val) cen (fun i => grow (t i)) := by
  have hg : ∀ i, grow (t i) = cls t ht i := fun i => grow_eq (t i) (ht i)
  have hw : (0 : EReal) ≤ ((1 / 16777216 : ℝ) : EReal) := by exact_mod_cast (by norm_num : (0 : ℝ) ≤ 1 / 16777216)
  have hw' : ((1 / 16777216 : ℝ) : EReal) ≠ ⊤ := EReal.coe_ne_top _
  unfold kval rval
  simp only [hg, seg_eq]
  show (zero + ∑ c : Fin 395, ∑ d : Fin 512,
      (term (seg x1 t c.val d) (cnt t (Fin.castLE (by decide) c : Fin 512).val) (cen c d)
        + term (seg x2 t c.val d) (cnt t (Fin.castLE (by decide) c : Fin 512).val) (cen c d))
        * cnt t (Fin.castLE (by decide) c : Fin 512).val) * wK
    = Ideal.div (zero + ∑ i : Fin 32768, ∑ d : Fin 512,
        term (seg x1 t (cls t ht i).val d) (cnt t (cls t ht i).val) (cen (cls t ht i) d)) wR
      + Ideal.div (zero + ∑ i : Fin 32768, ∑ d : Fin 512,
        term (seg x2 t (cls t ht i).val d) (cnt t (cls t ht i).val) (cen (cls t ht i) d)) wR
  have hc : ∀ c : Fin 395, (Fin.castLE (by decide) c : Fin 512).val = c.val := fun c => rfl
  simp only [hc]
  rw [wR_eq, wK_eq, Ideal.div_coe (by norm_num : (16777216 : ℝ) ≠ 0), Ideal.div_coe (by norm_num : (16777216 : ℝ) ≠ 0),
    zero_eq, zero_add, zero_add, zero_add]
  rw [sum_cls2 t ht (fun c d => term (seg x1 t c.val d) (cnt t c.val) (cen c d)),
    sum_cls2 t ht (fun c d => term (seg x2 t c.val d) (cnt t c.val) (cen c d))]
  rw [← EReal.right_distrib_of_nonneg_of_ne_top hw hw']
  refine congrArg (fun z : EReal => z * ((1 / 16777216 : ℝ) : EReal)) ?_
  rw [← Finset.sum_add_distrib]
  refine Finset.sum_congr rfl fun c _ => ?_
  rw [← Finset.sum_add_distrib]
  refine Finset.sum_congr rfl fun d _ => ?_
  rw [cnt_eq t ht c, add_mul_num]

end Cert.SegLoss

end
-- ==== Proof.lean ====
/-
  Cross-modal center loss by segment sums: the kernel computes per-class sums of the two feature matrices by a
  one-hot matrix product split over two cores, and the loss from the per-class sums and counts; the reference
  computes per-class means by scatter-add, gathers them back per sample and averages the smooth-L1 terms.

  The three frames are the generated runs.  The idealization rewrote nothing.  Over the extended reals, for
  labels in `[0, 395)` (the precondition's added conjunct: outside it the reference's gather indexes out of the
  table), both results are one number: a sum over the samples of a function of the sample's class is the sum
  over the classes weighted by the class sizes.
-/
import proofs.«402360_j36618891166025_3_alg».proof.Defs
import proofs.«402360_j36618891166025_3_alg».proof.Proof.Gen.Kernel
import proofs.«402360_j36618891166025_3_alg».proof.Proof.Gen.Kernel.Skeleton
import proofs.«402360_j36618891166025_3_alg».proof.Proof.Gen.Kernel.Launch
import proofs.«402360_j36618891166025_3_alg».proof.Proof.Gen.Kernel.Points
import proofs.«402360_j36618891166025_3_alg».proof.Proof.Gen.Kernel.Frame
import proofs.«402360_j36618891166025_3_alg».proof.Proof.Gen.KernelIdeal
import proofs.«402360_j36618891166025_3_alg».proof.Proof.Gen.KernelIdeal.Skeleton
import proofs.«402360_j36618891166025_3_alg».proof.Proof.Gen.KernelIdeal.Launch
import proofs.«402360_j36618891166025_3_alg».proof.Proof.Gen.KernelIdeal.Points
import proofs.«402360_j36618891166025_3_alg».proof.Proof.Gen.KernelIdeal.Frame
import proofs.«402360_j36618891166025_3_alg».proof.Proof.Gen.ReferenceIdeal
import proofs.«402360_j36618891166025_3_alg».proof.Proof.Gen.ReferenceIdeal.Run
import proofs.«402360_j36618891166025_3_alg».proof.Proof.Gen.ReferenceIdeal.Read
import proofs.«402360_j36618891166025_3_alg».proof.Proof.Gen.Pre_finite_inputs
import proofs.«402360_j36618891166025_3_alg».proof.Proof.KernelRun
import proofs.«402360_j36618891166025_3_alg».proof.Proof.RefValue
import proofs.«402360_j36618891166025_3_alg».proof.Proof.PreRange
import proofs.«402360_j36618891166025_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the kernel-side formula of the (agreeing) arguments: the reference's
    formula is the kernel's for labels in range. -/
theorem algebraic : Cert.algebraic_KernelIdeal_ReferenceIdeal := by
  intro m ρ m' ρ' hpre hagree
  refine ⟨fun c => Cert.KernelIdeal.Run.kres m c, Cert.KernelIdeal.Run.krun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.RefSide.ref_value, (hagree c).1, (hagree c).2.1, (hagree c).2.2.1,
    (hagree c).2.2.2]
  funext _
  exact (Cert.SegLoss.bridge _ _ _ _ (fun i => Cert.PreRange.range_of_pre m hpre c i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
